-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x128 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16x8192 .f32) (main_arg1 : FVec F S8192x128 .f32) (main_arg2 : FVec F S64x128 .f32) (main_arg3 : FVec F S64 .f32) (main_arg4 : FVec F S64x128 .f32) (main_arg5 : FVec F S64 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S1x64 : Shape := ⟨2, ![1, 64]⟩
abbrev S64x1 : Shape := ⟨2, ![64, 1]⟩
abbrev S64x8192 : Shape := ⟨2, ![64, 8192]⟩
abbrev S1024x8192 : Shape := ⟨2, ![1024, 8192]⟩
abbrev S1024x128 : Shape := ⟨2, ![1024, 128]⟩
abbrev S1024x64 : Shape := ⟨2, ![1024, 64]⟩
abbrev S1024x1 : Shape := ⟨2, ![1024, 1]⟩
abbrev S64x1024 : Shape := ⟨2, ![64, 1024]⟩
abbrev S1024x1024 : Shape := ⟨2, ![1024, 1024]⟩
abbrev S1024 : Shape := ⟨1, ![1024]⟩
abbrev S1x1024 : Shape := ⟨2, ![1, 1024]⟩
abbrev S16x1024 : Shape := ⟨2, ![16, 1024]⟩

abbrev nBuf : Space → Nat
  | .hbm => 9
  | .vmem => 9
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S1x64, .f32⟩
  | .hbm, ⟨7, _⟩ => ⟨S64x1, .f32⟩
  | .hbm, ⟨8, _⟩ => ⟨S16x8192, .f32⟩
  | .local _ .vmem, ⟨0, _⟩ => ⟨S16x8192, .f32⟩
  | .local _ .vmem, ⟨1, _⟩ => ⟨S8192x128, .f32⟩
  | .local _ .vmem, ⟨2, _⟩ => ⟨S64x128, .f32⟩
  | .local _ .vmem, ⟨3, _⟩ => ⟨S1x64, .f32⟩
  | .local _ .vmem, ⟨4, _⟩ => ⟨S64x128, .f32⟩
  | .local _ .vmem, ⟨5, _⟩ => ⟨S64x1, .f32⟩
  | .local _ .vmem, ⟨6, _⟩ => ⟨S16x8192, .f32⟩
  | .local _ .vmem, ⟨7, _⟩ => ⟨S64x8192, .bf16⟩
  | .local _ .vmem, ⟨8, _⟩ => ⟨S1024x8192, .bf16⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : Index := Scalar.indexCast v3
  let c0 : Index := 0#32
  ![v4.toNat, 0]
def k0_off2 (i : grid0.Coords) : Fin 2 → Nat :=
  let c0_48 : Index := 0#32
  let arg0 : BitVec 32 := BitVec.ofNat 32 (i 0).val
  let c1024_i32_47 : BitVec 32 := 1024#32
  let v95 : BitVec 32 := Scalar.muli arg0 c1024_i32_47
  let v96 : Index := Scalar.indexCast v95
  ![0, v96.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S64_S1x64 : S64.ShapeCasts S1x64
  shapeCasts_S64_S64x1 : S64.ShapeCasts S64x1
  inb_S64x128_S64x128_0_0 : ∀ a, (![0, 0] : Fin 2 → Nat) a + S64x128.size a ≤ S64x128.size a
  h_S64x128 : 0 < S64x128.numel
  inb_S8192x128_S8192x128_0_0 : ∀ a, (![0, 0] : Fin 2 → Nat) a + S8192x128.size a ≤ S8192x128.size a
  h_S8192x128 : 0 < S8192x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  bitsLt_bf16_f32 : FTy.bits .bf16 < FTy.bits .f32
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  packedbf16_S64x8192_S64x8192_0_0 : (Rect.unit (s := S64x8192) ![0, 0] S64x8192.size inb_S64x8192_S64x8192_0_0).PackedRows (EltTy.packing .bf16)
  inb_S16x8192_S16x8192_0_0 : ∀ a, (![0, 0] : Fin 2 → Nat) a + S16x8192.size a ≤ S16x8192.size a
  h_S16x8192 : 0 < S16x8192.numel
  h_S1024x128 : 0 < S1024x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x8192_S64x1024_0_0 : ∀ a, (![0, 0] : Fin 2 → Nat) a + S64x1024.size a ≤ S64x8192.size a
  h_S64x1024 : 0 < S64x1024.numel
  reduces_S1024x1024_S1024 : S1024x1024.Reduces [1] S1024
  shapeCasts_S1024_S1024x1 : S1024.ShapeCasts S1024x1
  inb_S1024x8192_S1024x1024_0_0 : ∀ a, (![0, 0] : Fin 2 → Nat) a + S1024x1024.size a ≤ S1024x8192.size a
  h_S1024x1024 : 0 < S1024x1024.numel
  shapeCasts_S1024x1024_S1024x1024 : S1024x1024.ShapeCasts S1024x1024
  packedbf16_S1024x8192_S1024x1024_0_0 : (Rect.unit (s := S1024x8192) ![0, 0] S1024x1024.size inb_S1024x8192_S1024x1024_0_0).PackedRows (EltTy.packing .bf16)
  inb_S64x8192_S64x1024_0_1024 : ∀ a, (![0, 1024] : Fin 2 → Nat) a + S64x1024.size a ≤ S64x8192.size a
  inb_S1024x8192_S1024x1024_0_1024 : ∀ a, (![0, 1024] : Fin 2 → Nat) a + S1024x1024.size a ≤ S1024x8192.size a
  packedbf16_S1024x8192_S1024x1024_0_1024 : (Rect.unit (s := S1024x8192) ![0, 1024] S1024x1024.size inb_S1024x8192_S1024x1024_0_1024).PackedRows (EltTy.packing .bf16)
  inb_S64x8192_S64x1024_0_2048 : ∀ a, (![0, 2048] : Fin 2 → Nat) a + S64x1024.size a ≤ S64x8192.size a
  inb_S1024x8192_S1024x1024_0_2048 : ∀ a, (![0, 2048] : Fin 2 → Nat) a + S1024x1024.size a ≤ S1024x8192.size a
  packedbf16_S1024x8192_S1024x1024_0_2048 : (Rect.unit (s := S1024x8192) ![0, 2048] S1024x1024.size inb_S1024x8192_S1024x1024_0_2048).PackedRows (EltTy.packing .bf16)
  inb_S64x8192_S64x1024_0_3072 : ∀ a, (![0, 3072] : Fin 2 → Nat) a + S64x1024.size a ≤ S64x8192.size a
  inb_S1024x8192_S1024x1024_0_3072 : ∀ a, (![0, 3072] : Fin 2 → Nat) a + S1024x1024.size a ≤ S1024x8192.size a
  packedbf16_S1024x8192_S1024x1024_0_3072 : (Rect.unit (s := S1024x8192) ![0, 3072] S1024x1024.size inb_S1024x8192_S1024x1024_0_3072).PackedRows (EltTy.packing .bf16)
  inb_S64x8192_S64x1024_0_4096 : ∀ a, (![0, 4096] : Fin 2 → Nat) a + S64x1024.size a ≤ S64x8192.size a
  inb_S1024x8192_S1024x1024_0_4096 : ∀ a, (![0, 4096] : Fin 2 → Nat) a + S1024x1024.size a ≤ S1024x8192.size a
  packedbf16_S1024x8192_S1024x1024_0_4096 : (Rect.unit (s := S1024x8192) ![0, 4096] S1024x1024.size inb_S1024x8192_S1024x1024_0_4096).PackedRows (EltTy.packing .bf16)
  inb_S64x8192_S64x1024_0_5120 : ∀ a, (![0, 5120] : Fin 2 → Nat) a + S64x1024.size a ≤ S64x8192.size a
  inb_S1024x8192_S1024x1024_0_5120 : ∀ a, (![0, 5120] : Fin 2 → Nat) a + S1024x1024.size a ≤ S1024x8192.size a
  packedbf16_S1024x8192_S1024x1024_0_5120 : (Rect.unit (s := S1024x8192) ![0, 5120] S1024x1024.size inb_S1024x8192_S1024x1024_0_5120).PackedRows (EltTy.packing .bf16)
  inb_S64x8192_S64x1024_0_6144 : ∀ a, (![0, 6144] : Fin 2 → Nat) a + S64x1024.size a ≤ S64x8192.size a
  inb_S1024x8192_S1024x1024_0_6144 : ∀ a, (![0, 6144] : Fin 2 → Nat) a + S1024x1024.size a ≤ S1024x8192.size a
  packedbf16_S1024x8192_S1024x1024_0_6144 : (Rect.unit (s := S1024x8192) ![0, 6144] S1024x1024.size inb_S1024x8192_S1024x1024_0_6144).PackedRows (EltTy.packing .bf16)
  inb_S64x8192_S64x1024_0_7168 : ∀ a, (![0, 7168] : Fin 2 → Nat) a + S64x1024.size a ≤ S64x8192.size a
  inb_S1024x8192_S1024x1024_0_7168 : ∀ a, (![0, 7168] : Fin 2 → Nat) a + S1024x1024.size a ≤ S1024x8192.size a
  packedbf16_S1024x8192_S1024x1024_0_7168 : (Rect.unit (s := S1024x8192) ![0, 7168] S1024x1024.size inb_S1024x8192_S1024x1024_0_7168).PackedRows (EltTy.packing .bf16)
  transposes_S1024x1_p1_0_S1x1024 : S1024x1.Transposes [1, 0] S1x1024
  h_S16x1024 : 0 < S16x1024.numel
  broadcasts_S1x1024_S16x1024 : S1x1024.Broadcasts S16x1024
  shapeCasts_S16x8192_S16x8192 : S16x8192.ShapeCasts S16x8192
  inb_S1024x8192_S1024x8192_0_0 : ∀ a, (![0, 0] : Fin 2 → Nat) a + S1024x8192.size a ≤ S1024x8192.size a
  h_S1024x8192 : 0 < S1024x8192.numel
  dot_S64x128_S8192x128_S64x8192_1_1_0_0_n_n_wf : DotDims.WF S64x128 S8192x128 S64x8192 [1] [1] [0] [0] [] []
  dot_S1024x128_S64x128_S1024x64_1_1_0_0_n_n_wf : DotDims.WF S1024x128 S64x128 S1024x64 [1] [1] [0] [0] [] []
  dot_S1024x64_S64x1024_S1024x1024_1_0_0_1_n_n_wf : DotDims.WF S1024x64 S64x1024 S1024x1024 [1] [0] [0] [1] [] []
  dot_S16x1024_S1024x8192_S16x8192_1_0_0_1_n_n_wf : DotDims.WF S16x1024 S1024x8192 S16x8192 [1] [0] [0] [1] [] []
  hrank0 : 0 < grid0.rank
  k0_off1_inb : ∀ i : grid0.Coords, ∀ a, (k0_off1 i) a + S1024x128.size a ≤ S8192x128.size a
  k0_off2_inb : ∀ i : grid0.Coords, ∀ a, (k0_off2 i) a + S16x1024.size a ≤ S16x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .f32 = 32 ∨ (Rect.block (s := S16x8192) S16x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x8192.size a ≤ S16x8192.size a
  hwx0_6 : ∀ i : grid0.Coords, EltTy.bits .f32 = 32 ∨ (Rect.block (s := S16x8192) S16x8192.size (cc0_transform_6 i) (hinb0_6 i)).WholeWords (EltTy.packing .f32)

variable [Facts₀]

def dot_S64x128_S8192x128_S64x8192_1_1_0_0_n_n : DotDims S64x128 S8192x128 S64x8192 where
  lhsContracting := [1]
  rhsContracting := [1]
  lhsNonContracting := [0]
  rhsNonContracting := [0]
  lhsBatch := []
  rhsBatch := []
  wf := dot_S64x128_S8192x128_S64x8192_1_1_0_0_n_n_wf
def dot_S1024x128_S64x128_S1024x64_1_1_0_0_n_n : DotDims S1024x128 S64x128 S1024x64 where
  lhsContracting := [1]
  rhsContracting := [1]
  lhsNonContracting := [0]
  rhsNonContracting := [0]
  lhsBatch := []
  rhsBatch := []
  wf := dot_S1024x128_S64x128_S1024x64_1_1_0_0_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S16x1024_S1024x8192_S16x8192_1_0_0_1_n_n : DotDims S16x1024 S1024x8192 S16x8192 where
  lhsContracting := [1]
  rhsContracting := [0]
  lhsNonContracting := [0]
  rhsNonContracting := [1]
  lhsBatch := []
  rhsBatch := []
  wf := dot_S16x1024_S1024x8192_S16x8192_1_0_0_1_n_n_wf

abbrev win0_0 : Pipeline.Window sig grid0 :=
  Pipeline.Window.ofSpec (Memref.whole main_arg0) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S16x8192.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S128x64 : Shape := ⟨2, ![128, 64]⟩
abbrev S8192x64 : Shape := ⟨2, ![8192, 64]⟩
abbrev S1x64 : Shape := ⟨2, ![1, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S128x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S128x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S64x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x128_S128x64_S8192x64_1_0_0_1_n_n_wf : DotDims.WF S8192x128 S128x64 S8192x64 [1] [0] [0] [1] [] []
  dot_S8192x64_S64x8192_S8192x8192_1_0_0_1_n_n_wf : DotDims.WF S8192x64 S64x8192 S8192x8192 [1] [0] [0] [1] [] []
  dot_S16x8192_S8192x8192_S16x8192_1_0_0_1_n_n_wf : DotDims.WF S16x8192 S8192x8192 S16x8192 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S16x8192_S8192x8192_S16x8192_1_0_0_1_n_n : DotDims S16x8192 S8192x8192 S16x8192 where
  lhsContracting := [1]
  rhsContracting := [0]
  lhsNonContracting := [0]
  rhsNonContracting := [1]
  lhsBatch := []
  rhsBatch := []
  wf := dot_S16x8192_S8192x8192_S16x8192_1_0_0_1_n_n_wf

class Facts : Prop extends Facts₀ where

variable [Facts]
-- ==== Proof.KSlab.lean ====
/-
  One grid point of the kernel as a pure function of what it reads.

  At grid point `i` the body reads a slab of 1024 rows of the embedding table and of 1024 columns of the belief,
  the whole query map and bias, the key features `K` (64 × 8192, computed at the first point and carried), and the
  running result `acc`. It forms the slab's queries, then chunk by chunk of 1024 columns the exponentials of the
  slab's logits, written into a 1024 × 8192 buffer and summed along each row; the belief columns are divided by the
  row sums, multiplied into the buffer of exponentials, and added to `acc`. `slab` is that value; the three
  lemmas say that what each control case of the body leaves in its buffers is `slab` (and, at the first point, the
  key features and a zero start).
-/
import proofs.«122804_g5935644803188_cont_9to1c4b_610_12_alg».proof.Proof.Gen.KernelIdeal.Frame
import Idealize.ShloMosaic.Lib.Pipeline.Value

set_option maxRecDepth 16384

noncomputable section

namespace Cert.KSlab

open Cert.KernelIdeal Cert.KernelIdeal.Gen
open Idealize.ShloMosaic Idealize.ShloMosaic.TcCoe Idealize.ShloMosaic.Tactic
open Idealize.SL Idealize.SL.Sem

variable {F : FTy → Type} [FloatOps F]

/-- The slab's 1024 rows of the embedding table. -/
abbrev ldE (i : grid0.Coords) (x1 : Vec F S8192x128 .f32) : Vec F S1024x128 .f32 :=
  View.ld x1 (Rect.unit (s := S8192x128) (k0_off1 i) S1024x128.size (k0_off1_inb i))
/-- The slab's 1024 columns of the belief. -/
abbrev ldB (i : grid0.Coords) (x0 : Vec F S16x8192 .f32) : Vec F S16x1024 .f32 :=
  View.ld x0 (Rect.unit (s := S16x8192) (k0_off2 i) S16x1024.size (k0_off2_inb i))
/-- The eight chunks of 1024 columns of the key features. -/
abbrev ldK0 (K : Vec F S64x8192 .bf16) : Vec F S64x1024 .bf16 :=
  View.ld K (Rect.unit (s := S64x8192) ![0, 0] S64x1024.size inb_S64x8192_S64x1024_0_0)
abbrev ldK1 (K : Vec F S64x8192 .bf16) : Vec F S64x1024 .bf16 :=
  View.ld K (Rect.unit (s := S64x8192) ![0, 1024] S64x1024.size inb_S64x8192_S64x1024_0_1024)
abbrev ldK2 (K : Vec F S64x8192 .bf16) : Vec F S64x1024 .bf16 :=
  View.ld K (Rect.unit (s := S64x8192) ![0, 2048] S64x1024.size inb_S64x8192_S64x1024_0_2048)
abbrev ldK3 (K : Vec F S64x8192 .bf16) : Vec F S64x1024 .bf16 :=
  View.ld K (Rect.unit (s := S64x8192) ![0, 3072] S64x1024.size inb_S64x8192_S64x1024_0_3072)
abbrev ldK4 (K : Vec F S64x8192 .bf16) : Vec F S64x1024 .bf16 :=
  View.ld K (Rect.unit (s := S64x8192) ![0, 4096] S64x1024.size inb_S64x8192_S64x1024_0_4096)
abbrev ldK5 (K : Vec F S64x8192 .bf16) : Vec F S64x1024 .bf16 :=
  View.ld K (Rect.unit (s := S64x8192) ![0, 5120] S64x1024.size inb_S64x8192_S64x1024_0_5120)
abbrev ldK6 (K : Vec F S64x8192 .bf16) : Vec F S64x1024 .bf16 :=
  View.ld K (Rect.unit (s := S64x8192) ![0, 6144] S64x1024.size inb_S64x8192_S64x1024_0_6144)
abbrev ldK7 (K : Vec F S64x8192 .bf16) : Vec F S64x1024 .bf16 :=
  View.ld K (Rect.unit (s := S64x8192) ![0, 7168] S64x1024.size inb_S64x8192_S64x1024_0_7168)

/-- The slab's query features. -/
def Q (i : grid0.Coords) (x1 : Vec F S8192x128 .f32) (x2 : Vec F S64x128 .f32) (x3 : Vec F S1x64 .f32) : FVec F S1024x64 .bf16 :=
  k0_pay4 (ldE i x1) x2 x3

/-- The eight stores of exponentials, last first. -/
def expPieces (i : grid0.Coords) (x1 : Vec F S8192x128 .f32) (x2 : Vec F S64x128 .f32) (x3 : Vec F S1x64 .f32)
    (K : Vec F S64x8192 .bf16) : List (View.Piece (Elt F) S1024x8192 .bf16) :=
  [
    ⟨Rect.unit (s := S1024x8192) ![0, 7168] S1024x1024.size inb_S1024x8192_S1024x1024_0_7168, k0_pay23 (Q i x1 x2 x3) (ldK7 K)⟩,
    ⟨Rect.unit (s := S1024x8192) ![0, 6144] S1024x1024.size inb_S1024x8192_S1024x1024_0_6144, k0_pay21 (Q i x1 x2 x3) (ldK6 K)⟩,
    ⟨Rect.unit (s := S1024x8192) ![0, 5120] S1024x1024.size inb_S1024x8192_S1024x1024_0_5120, k0_pay19 (k0_pay17 (Q i x1 x2 x3) (ldK5 K))⟩,
    ⟨Rect.unit (s := S1024x8192) ![0, 4096] S1024x1024.size inb_S1024x8192_S1024x1024_0_4096, k0_pay16 (Q i x1 x2 x3) (ldK4 K)⟩,
    ⟨Rect.unit (s := S1024x8192) ![0, 3072] S1024x1024.size inb_S1024x8192_S1024x1024_0_3072, k0_pay13 (Q i x1 x2 x3) (ldK3 K)⟩,
    ⟨Rect.unit (s := S1024x8192) ![0, 2048] S1024x1024.size inb_S1024x8192_S1024x1024_0_2048, k0_pay11 (Q i x1 x2 x3) (ldK2 K)⟩,
    ⟨Rect.unit (s := S1024x8192) ![0, 1024] S1024x1024.size inb_S1024x8192_S1024x1024_0_1024, k0_pay9 (ldE i x1) x2 x3 (ldK1 K)⟩,
    ⟨Rect.unit (s := S1024x8192) ![0, 0] S1024x1024.size inb_S1024x8192_S1024x1024_0_0, k0_pay6 (ldE i x1) x2 x3 (ldK0 K)⟩]

/-- The buffer of exponentials of the slab's logits, all 8192 columns. -/
def P16 (i : grid0.Coords) (x1 : Vec F S8192x128 .f32) (x2 : Vec F S64x128 .f32) (x3 : Vec F S1x64 .f32)
    (K : Vec F S64x8192 .bf16) : Vec F S1024x8192 .bf16 :=
  View.canon (expPieces i x1 x2 x3 K)

/-- What one grid point leaves in the result buffer, from the running result `acc` and the key features `K`. -/
def slab (i : grid0.Coords) (x0 : Vec F S16x8192 .f32) (x1 : Vec F S8192x128 .f32) (x2 : Vec F S64x128 .f32) (x3 : Vec F S1x64 .f32)
    (K : Vec F S64x8192 .bf16) (acc : Vec F S16x8192 .f32) : Vec F S16x8192 .f32 :=
  k0_pay1 (k0_pay24 acc)
    (k0_pay25 (Q i x1 x2 x3)
      (k0_pay15 (Q i x1 x2 x3) (k0_pay8 (ldE i x1) x2 x3 (ldK0 K) (ldK1 K)) (ldK2 K) (ldK3 K) (ldK4 K))
      (k0_pay18 (Q i x1 x2 x3) (ldK5 K)) (ldK6 K) (ldK7 K) (ldB i x0) (P16 i x1 x2 x3 K))

theorem hz2 : (![0, 0] : Fin 2 → Nat) = fun _ => 0 := by
  funext a; match a with | ⟨0, _⟩ => rfl | ⟨1, _⟩ => rfl

/-- A load of the whole buffer after a list of stores reads what the stores left. -/
theorem readCov_whole {sig : RefSig} {κ : Kind} {sp : Space} {S : Shape} {e : EltTy} {Val : EltTy → Type} [∀ e, Nonempty (Val e)]
    (v : View sig κ sp S e) (L : List (View.Piece Val S e)) {off : Fin S.rank → Nat} (h : off = fun _ => 0)
    (inb : ∀ a, off a + S.size a ≤ S.size a) :
    v.readCov L (Rect.unit off S.size inb).toLoadRect = View.canon L := by
  rw [View.readCov_eq_canon']
  exact View.ld_unit_zero h inb (View.canon L)

/-- A load of any rectangle after ONE store of the whole buffer reads the stored value there. -/
theorem readCov_of_whole_store {sig : RefSig} {κ : Kind} {sp : Space} {S : Shape} {e : EltTy} {Val : EltTy → Type} [∀ e, Nonempty (Val e)]
    (v : View sig κ sp S e) {off : Fin S.rank → Nat} (h : off = fun _ => 0) (inb : ∀ a, off a + S.size a ≤ S.size a)
    (w : S.Idx → Val e) (r : Rect S) :
    v.readCov [(⟨Rect.unit off S.size inb, w⟩ : View.Piece Val S e)] r.toLoadRect = View.ld w r := by
  rw [View.readCov_eq_canon', View.canon_unit_zero h]

/-- The eight stores of exponentials tile the buffer. -/
theorem expPieces_cover (i : grid0.Coords) (x1 : Vec F S8192x128 .f32) (x2 : Vec F S64x128 .f32) (x3 : Vec F S1x64 .f32)
    (K : Vec F S64x8192 .bf16) (y : S1024x8192.Idx) : ∃ p ∈ expPieces i x1 x2 x3 K, y ∈ p.1.set :=
  View.cover_of_tiledL (expPieces i x1 x2 x3 K) S1024x1024.size (by unfold expPieces; sl_kernel_rfl) y

/-- A point that is not the first: the body leaves `slab` of the carried key features and the running result. -/
theorem outB_eq (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S1024x8192 .bf16) (harg9 : arg9.IsWhole) (hc0 : ¬cond0_0 i) (x0 : Vec F S16x8192 .f32) (x1 : Vec F S8192x128 .f32) (x2 : Vec F S64x128 .f32) (x3 : Vec F S1x64 .f32) (x4 : Vec F S64x128 .f32) (x5 : Vec F S64x1 .f32) (xo6 : Vec F S16x8192 .f32) (xs0 : Vec F S64x8192 .bf16) :
    out0_B_6 c i arg1 harg1 arg2 harg2 arg3 harg3 arg4 harg4 arg5 harg5 arg6 harg6 arg7 harg7 arg8 harg8 arg9 harg9 hc0 x0 x1 x2 x3 x4 x5 xo6 xs0 = slab i x0 x1 x2 x3 xs0 xo6 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo6 xs0)]
  unfold kernelRun0_B
  dsimp only
  sl_unfold_run_names
  rw [View.canon_unit_zero hz2]
  simp only [View.readAt_eq_ld, harg1.read_unread, harg2.read_unread, harg3.read_unread, harg4.read_unread, harg5.read_unread,
    harg6.read_unread, harg7.read_unread, harg8.read_unread, View.ld_unit_zero (S := S16x8192) hz2, View.ld_unit_zero (S := S8192x128) hz2, View.ld_unit_zero (S := S64x128) hz2, View.ld_unit_zero (S := S1x64) hz2, View.ld_unit_zero (S := S64x1) hz2]
  rw [readCov_whole _ _ hz2]
  rfl

/-- The first point: the body computes the key features, starts the result from zero, and leaves `slab` of those. -/
theorem outA_eq (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S1024x8192 .bf16) (harg9 : arg9.IsWhole) (hc0 : cond0_0 i) (x0 : Vec F S16x8192 .f32) (x1 : Vec F S8192x128 .f32) (x2 : Vec F S64x128 .f32) (x3 : Vec F S1x64 .f32) (x4 : Vec F S64x128 .f32) (x5 : Vec F S64x1 .f32) :
    out0_A_6 c i arg1 harg1 arg2 harg2 arg3 harg3 arg4 harg4 arg5 harg5 arg6 harg6 arg7 harg7 arg8 harg8 arg9 harg9 hc0 x0 x1 x2 x3 x4 x5 = slab i x0 x1 x2 x3 (k0_pay2 x4 x1 x5) k0_pay3 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_run_names
  rw [View.canon_cons_unit_zero hz2]
  simp only [View.readAt_eq_ld, harg1.read_unread, harg2.read_unread, harg3.read_unread, harg4.read_unread, harg5.read_unread,
    harg6.read_unread, harg7.read_unread, harg8.read_unread, View.ld_unit_zero (S := S16x8192) hz2, View.ld_unit_zero (S := S8192x128) hz2, View.ld_unit_zero (S := S64x128) hz2, View.ld_unit_zero (S := S1x64) hz2, View.ld_unit_zero (S := S64x1) hz2, readCov_of_whole_store arg8.view hz2,
    View.readCov_unit_zero arg7.view hz2]
  rw [readCov_whole _ _ hz2]
  rfl

/-- The first point leaves the key features in the carried scratch. -/
theorem soutA_eq (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S1024x8192 .bf16) (harg9 : arg9.IsWhole) (hc0 : cond0_0 i) (x0 : Vec F S16x8192 .f32) (x1 : Vec F S8192x128 .f32) (x2 : Vec F S64x128 .f32) (x3 : Vec F S1x64 .f32) (x4 : Vec F S64x128 .f32) (x5 : Vec F S64x1 .f32) :
    sout0_A_0 c i arg1 harg1 arg2 harg2 arg3 harg3 arg4 harg4 arg5 harg5 arg6 harg6 arg7 harg7 arg8 harg8 arg9 harg9 hc0 x0 x1 x2 x3 x4 x5 = k0_pay2 x4 x1 x5 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_run_names
  rw [View.canon_unit_zero hz2]
  simp only [View.readAt_eq_ld, harg2.read_unread, harg5.read_unread, harg6.read_unread, View.ld_unit_zero (S := S16x8192) hz2, View.ld_unit_zero (S := S8192x128) hz2, View.ld_unit_zero (S := S64x128) hz2, View.ld_unit_zero (S := S1x64) hz2, View.ld_unit_zero (S := S64x1) hz2]

end Cert.KSlab

end
-- ==== Proof.Spec.lean ====
/-
  The value both programs compute, stated over the reals.

  Inputs (all finite, hence real): a belief matrix `b : 16 × 8192`, an embedding table `e : 8192 × 128`,
  two linear maps with biases `(wq, bq)`, `(wk, bk) : 64 × 128`, `64`.
    q i h   = ∑ d, e i d · wq h d + bq h                     (queries of state i)
    k j h   = ∑ d, e j d · wk h d + bk h                     (keys of state j)
    l i j   = ∑ h, q i h · k j h                             (the logit of the transition i → j)
    z i     = ∑ j, exp (l i j)                               (row i's normaliser, strictly positive)
    t i j   = exp (l i j) / z i                              (the row-stochastic transition matrix)
    out b j = ∑ i, b b i · t i j                             (the belief pushed through the transition)
  The kernel accumulates `out` over eight slabs of 1024 rows `i`, dividing the belief by `z i` before the
  product; the reference subtracts each row's maximum before exponentiating. Over the reals both are `out`:
  `exp (l − m) / ∑ exp (l' − m) = exp l / ∑ exp l'`, and `(b / z) · p = b · (p / z)`.
-/
import Idealize.ShloMosaic.PureOps.Ideal
import Idealize.ShloMosaic.Lib.ValueIdx

noncomputable section

namespace Cert.Spec

open Idealize.ShloMosaic Idealize.ShloMosaic.ValueIdx

/-- The six argument arrays as real-valued functions of their coordinates. -/
structure RIn where
  b : Fin 16 → Fin 8192 → ℝ
  e : Fin 8192 → Fin 128 → ℝ
  wk : Fin 64 → Fin 128 → ℝ
  bk : Fin 64 → ℝ
  wq : Fin 64 → Fin 128 → ℝ
  bq : Fin 64 → ℝ

/-- The query features of state `i`. -/
def qr (R : RIn) (i : Fin 8192) (h : Fin 64) : ℝ := (∑ d : Fin 128, R.e i d * R.wq h d) + R.bq h
/-- The key features of state `j`. -/
def kr (R : RIn) (j : Fin 8192) (h : Fin 64) : ℝ := (∑ d : Fin 128, R.e j d * R.wk h d) + R.bk h
/-- The logit of the transition `i → j`. -/
def lr (R : RIn) (i j : Fin 8192) : ℝ := ∑ h : Fin 64, qr R i h * kr R j h
/-- Row `i`'s normaliser. -/
def zr (R : RIn) (i : Fin 8192) : ℝ := ∑ j : Fin 8192, Real.exp (lr R i j)
/-- The transition matrix: the softmax of each row of logits. -/
def tr (R : RIn) (i j : Fin 8192) : ℝ := Real.exp (lr R i j) / zr R i
/-- The result: the belief pushed through the transition matrix. -/
def outr (R : RIn) (b : Fin 16) (j : Fin 8192) : ℝ := ∑ i : Fin 8192, R.b b i * tr R i j

/-- The result array as both programs leave it: `out` at every index, as an extended real. -/
def G (R : RIn) : (⟨2, ![16, 8192]⟩ : Shape).Idx → EReal := fun y => ((outr R (y 0) (y 1) : ℝ) : EReal)

/-- A rank-2 array of extended reals holds the real matrix `r`. -/
def IsReal2 {n0 n1 : Nat} (x : (⟨2, ![n0, n1]⟩ : Shape).Idx → EReal) (r : Fin n0 → Fin n1 → ℝ) : Prop :=
  ∀ a b, x (ix2 a b) = ((r a b : ℝ) : EReal)
/-- A rank-1 array of extended reals holds the real vector `r`. -/
def IsReal1 {n : Nat} (x : (⟨1, ![n]⟩ : Shape).Idx → EReal) (r : Fin n → ℝ) : Prop :=
  ∀ a, x (ix1 a) = ((r a : ℝ) : EReal)

theorem zr_pos (R : RIn) (i : Fin 8192) : 0 < zr R i :=
  Finset.sum_pos (fun j _ => Real.exp_pos _) ⟨⟨0, by norm_num⟩, Finset.mem_univ _⟩

theorem zr_ne (R : RIn) (i : Fin 8192) : zr R i ≠ 0 := (zr_pos R i).ne'

/-- A finite sum of reals, summed as extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The exact quotient of two reals, the divisor not zero, is the real quotient. -/
theorem div_coe_coe (x y : ℝ) (hy : y ≠ 0) : Ideal.div (x : EReal) (y : EReal) = ((x / y : ℝ) : EReal) := by
  rw [Ideal.div_coe hy, ← EReal.coe_mul]; congr 1; ring

/-- Subtracting one number from every logit of a row does not change the row's softmax. -/
theorem softmax_shift {κ : Type*} [Fintype κ] (l : κ → ℝ) (m : ℝ) (j : κ) :
    Real.exp (l j - m) / ∑ j' : κ, Real.exp (l j' - m) = Real.exp (l j) / ∑ j' : κ, Real.exp (l j') := by
  simp only [Real.exp_sub]
  rw [← Finset.sum_div, div_div_div_cancel_right₀ (Real.exp_pos m).ne']

/-- The maximum of finitely many reals, folded from `−∞` over a nonempty set, is a real. -/
theorem fold_max_real {κ : Type*} (s : Finset κ) (hs : s.Nonempty) (l : κ → ℝ) :
    ∃ r : ℝ, s.fold max (⊥ : EReal) (fun k => ((l k : ℝ) : EReal)) = (r : EReal) := by
  obtain ⟨k, _, hk⟩ := Finset.exists_mem_eq_sup s hs (fun k => ((l k : ℝ) : EReal))
  exact ⟨l k, hk⟩

end Cert.Spec

end
-- ==== Proof.KMat.lean ====
import proofs.«122804_g5935644803188_cont_9to1c4b_610_12_alg».proof.Proof.Gen.KernelIdeal.Skeleton
import proofs.«122804_g5935644803188_cont_9to1c4b_610_12_alg».proof.Proof.Spec
import Idealize.ShloMosaic.Lib.ValueIdx
import Idealize.ShloMosaic.Lib.ValueLayout
import Idealize.ShloMosaic.Lib.Pipeline.Value
import Idealize.ShloMosaic.PureOps.Ideal.Laws

/-!
  The kernel's three matrix products read at an index over the reals.

  With every operand a real number at every index, the query features are
  q a h = ∑ d, e a d · w h d + β h, the key features are the same sum with the two operands in the other
  order, and an exponentiated chunk of logits is exp (∑ h, q a h · k h b). The other exponentiated
  chunks are the same term over another key block, and a chunk stored in the narrower format is the
  chunk itself: a change of format is the identity on extended reals, and so is a reshape of a shape to
  itself.
-/

noncomputable section

namespace Cert.KMat

open Cert.KernelIdeal Cert.KernelIdeal.Gen Idealize.ShloMosaic Idealize.ShloMosaic.ValueIdx

/-! ## One column broadcast over many -/

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The query product [1024, 128] · [64, 128]ᵀ: both operands contract their second axis -/

theorem lhsQ_0 (i : S1024x64.Idx) (q : dot_S1024x128_S64x128_S1024x64_1_1_0_0_n_n.contr.Idx) :
    (dot_S1024x128_S64x128_S1024x64_1_1_0_0_n_n.lhsIdx i q 0).val = (i 0).val := by
  unfold DotDims.lhsIdx
  rw [dif_neg (show ¬(0 : Fin S1024x128.rank) ∈ dot_S1024x128_S64x128_S1024x64_1_1_0_0_n_n.lhsBatch by decide), dif_pos (show (0 : Fin S1024x128.rank) ∈ dot_S1024x128_S64x128_S1024x64_1_1_0_0_n_n.lhsNonContracting by decide)]
  rfl
theorem lhsQ_1 (i : S1024x64.Idx) (q : dot_S1024x128_S64x128_S1024x64_1_1_0_0_n_n.contr.Idx) :
    (dot_S1024x128_S64x128_S1024x64_1_1_0_0_n_n.lhsIdx i q 1).val = (q ⟨0, by decide⟩).val :=
  dot_S1024x128_S64x128_S1024x64_1_1_0_0_n_n.lhsIdx_val_of_single rfl i q
theorem rhsQ_0 (i : S1024x64.Idx) (q : dot_S1024x128_S64x128_S1024x64_1_1_0_0_n_n.contr.Idx) :
    (dot_S1024x128_S64x128_S1024x64_1_1_0_0_n_n.rhsIdx i q 0).val = (i 1).val := by
  unfold DotDims.rhsIdx
  rw [dif_neg (show ¬(0 : Fin S64x128.rank) ∈ dot_S1024x128_S64x128_S1024x64_1_1_0_0_n_n.rhsBatch by decide), dif_pos (show (0 : Fin S64x128.rank) ∈ dot_S1024x128_S64x128_S1024x64_1_1_0_0_n_n.rhsNonContracting by decide)]
  rfl
theorem rhsQ_1 (i : S1024x64.Idx) (q : dot_S1024x128_S64x128_S1024x64_1_1_0_0_n_n.contr.Idx) :
    (dot_S1024x128_S64x128_S1024x64_1_1_0_0_n_n.rhsIdx i q 1).val = (q ⟨0, by decide⟩).val :=
  dot_S1024x128_S64x128_S1024x64_1_1_0_0_n_n.rhsIdx_val_of_single rfl i q

/-- The product into the zero accumulator at (a, h): row a of the left operand against row h of the right. -/
theorem matmulQ_apply (x : FVec Ideal S1024x128 .f32) (y : FVec Ideal S64x128 .f32) (a : Fin 1024) (h : Fin 64) :
    matmul dot_S1024x128_S64x128_S1024x64_1_1_0_0_n_n none x y (constant (F := Ideal) S1024x64 .f32 0x00000000#32) (ix2 a h)
      = ∑ d : Fin 128, x (ix2 a d) * y (ix2 h d) := by
  refine (Ideal.matmul_constant_zero_apply dot_S1024x128_S64x128_S1024x64_1_1_0_0_n_n none x y (ix2 a h)).trans ?_
  rw [← Equiv.sum_comp (contrEquiv1 dot_S1024x128_S64x128_S1024x64_1_1_0_0_n_n 128 rfl rfl).symm]
  refine Finset.sum_congr rfl fun k _ => ?_
  have hk := contrEquiv1_symm_val dot_S1024x128_S64x128_S1024x64_1_1_0_0_n_n 128 rfl rfl k
  have el : dot_S1024x128_S64x128_S1024x64_1_1_0_0_n_n.lhsIdx (ix2 a h) ((contrEquiv1 dot_S1024x128_S64x128_S1024x64_1_1_0_0_n_n 128 rfl rfl).symm k) = ix2 a k := funext fun c => Fin.ext (by
    match c with
    | ⟨0, _⟩ => exact lhsQ_0 _ _
    | ⟨1, _⟩ => exact (lhsQ_1 _ _).trans hk)
  have er : dot_S1024x128_S64x128_S1024x64_1_1_0_0_n_n.rhsIdx (ix2 a h) ((contrEquiv1 dot_S1024x128_S64x128_S1024x64_1_1_0_0_n_n 128 rfl rfl).symm k) = ix2 h k := funext fun c => Fin.ext (by
    match c with
    | ⟨0, _⟩ => exact rhsQ_0 _ _
    | ⟨1, _⟩ => exact (rhsQ_1 _ _).trans hk)
  rw [el, er]

/-- The query features at (a, h): the product's sum plus the bias, a real number. -/
theorem pay4_apply (v5 : Vec Ideal S1024x128 .f32) (v6 : Vec Ideal S64x128 .f32) (v8 : Vec Ideal S1x64 .f32)
    (e : Fin 1024 → Fin 128 → ℝ) (w : Fin 64 → Fin 128 → ℝ) (β : Fin 64 → ℝ)
    (h5 : ∀ a d, v5 (ix2 a d) = ((e a d : ℝ) : EReal)) (h6 : ∀ h d, v6 (ix2 h d) = ((w h d : ℝ) : EReal))
    (h8 : ∀ h, v8 (ix2 (0 : Fin 1) h) = ((β h : ℝ) : EReal)) (a : Fin 1024) (h : Fin 64) :
    k0_pay4 (F := Ideal) v5 v6 v8 (ix2 a h) = (((∑ d : Fin 128, e a d * w h d) + β h : ℝ) : EReal) := by
  unfold k0_pay4
  simp only [truncf_apply, addf_apply]
  rw [matmulQ_apply, shapeCast_self, broadcastTo_1b_ab_apply, h8]
  simp only [h5, h6, ← EReal.coe_mul]
  rw [Spec.coe_sum, ← EReal.coe_add]

/-! ## The key product [64, 128] · [8192, 128]ᵀ: both operands contract their second axis -/

theorem lhsK_0 (i : S64x8192.Idx) (q : dot_S64x128_S8192x128_S64x8192_1_1_0_0_n_n.contr.Idx) :
    (dot_S64x128_S8192x128_S64x8192_1_1_0_0_n_n.lhsIdx i q 0).val = (i 0).val := by
  unfold DotDims.lhsIdx
  rw [dif_neg (show ¬(0 : Fin S64x128.rank) ∈ dot_S64x128_S8192x128_S64x8192_1_1_0_0_n_n.lhsBatch by decide), dif_pos (show (0 : Fin S64x128.rank) ∈ dot_S64x128_S8192x128_S64x8192_1_1_0_0_n_n.lhsNonContracting by decide)]
  rfl
theorem lhsK_1 (i : S64x8192.Idx) (q : dot_S64x128_S8192x128_S64x8192_1_1_0_0_n_n.contr.Idx) :
    (dot_S64x128_S8192x128_S64x8192_1_1_0_0_n_n.lhsIdx i q 1).val = (q ⟨0, by decide⟩).val :=
  dot_S64x128_S8192x128_S64x8192_1_1_0_0_n_n.lhsIdx_val_of_single rfl i q
theorem rhsK_0 (i : S64x8192.Idx) (q : dot_S64x128_S8192x128_S64x8192_1_1_0_0_n_n.contr.Idx) :
    (dot_S64x128_S8192x128_S64x8192_1_1_0_0_n_n.rhsIdx i q 0).val = (i 1).val := by
  unfold DotDims.rhsIdx
  rw [dif_neg (show ¬(0 : Fin S8192x128.rank) ∈ dot_S64x128_S8192x128_S64x8192_1_1_0_0_n_n.rhsBatch by decide), dif_pos (show (0 : Fin S8192x128.rank) ∈ dot_S64x128_S8192x128_S64x8192_1_1_0_0_n_n.rhsNonContracting by decide)]
  rfl
theorem rhsK_1 (i : S64x8192.Idx) (q : dot_S64x128_S8192x128_S64x8192_1_1_0_0_n_n.contr.Idx) :
    (dot_S64x128_S8192x128_S64x8192_1_1_0_0_n_n.rhsIdx i q 1).val = (q ⟨0, by decide⟩).val :=
  dot_S64x128_S8192x128_S64x8192_1_1_0_0_n_n.rhsIdx_val_of_single rfl i q

/-- The product into the zero accumulator at (h, j): row h of the left operand against row j of the right. -/
theorem matmulK_apply (x : FVec Ideal S64x128 .f32) (y : FVec Ideal S8192x128 .f32) (h : Fin 64) (j : Fin 8192) :
    matmul dot_S64x128_S8192x128_S64x8192_1_1_0_0_n_n none x y (constant (F := Ideal) S64x8192 .f32 0x00000000#32) (ix2 h j)
      = ∑ d : Fin 128, x (ix2 h d) * y (ix2 j d) := by
  refine (Ideal.matmul_constant_zero_apply dot_S64x128_S8192x128_S64x8192_1_1_0_0_n_n none x y (ix2 h j)).trans ?_
  rw [← Equiv.sum_comp (contrEquiv1 dot_S64x128_S8192x128_S64x8192_1_1_0_0_n_n 128 rfl rfl).symm]
  refine Finset.sum_congr rfl fun k _ => ?_
  have hk := contrEquiv1_symm_val dot_S64x128_S8192x128_S64x8192_1_1_0_0_n_n 128 rfl rfl k
  have el : dot_S64x128_S8192x128_S64x8192_1_1_0_0_n_n.lhsIdx (ix2 h j) ((contrEquiv1 dot_S64x128_S8192x128_S64x8192_1_1_0_0_n_n 128 rfl rfl).symm k) = ix2 h k := funext fun c => Fin.ext (by
    match c with
    | ⟨0, _⟩ => exact lhsK_0 _ _
    | ⟨1, _⟩ => exact (lhsK_1 _ _).trans hk)
  have er : dot_S64x128_S8192x128_S64x8192_1_1_0_0_n_n.rhsIdx (ix2 h j) ((contrEquiv1 dot_S64x128_S8192x128_S64x8192_1_1_0_0_n_n 128 rfl rfl).symm k) = ix2 j k := funext fun c => Fin.ext (by
    match c with
    | ⟨0, _⟩ => exact rhsK_0 _ _
    | ⟨1, _⟩ => exact (rhsK_1 _ _).trans hk)
  rw [el, er]

/-- The key features at (h, j): the product's sum plus the bias of row h, a real number. -/
theorem pay2_apply (v107 : Vec Ideal S64x128 .f32) (v108 : Vec Ideal S8192x128 .f32) (v110 : Vec Ideal S64x1 .f32)
    (w : Fin 64 → Fin 128 → ℝ) (e : Fin 8192 → Fin 128 → ℝ) (β : Fin 64 → ℝ)
    (h107 : ∀ h d, v107 (ix2 h d) = ((w h d : ℝ) : EReal)) (h108 : ∀ j d, v108 (ix2 j d) = ((e j d : ℝ) : EReal))
    (h110 : ∀ h, v110 (ix2 h (0 : Fin 1)) = ((β h : ℝ) : EReal)) (h : Fin 64) (j : Fin 8192) :
    k0_pay2 (F := Ideal) v107 v108 v110 (ix2 h j) = (((∑ d : Fin 128, w h d * e j d) + β h : ℝ) : EReal) := by
  unfold k0_pay2
  rw [shapeCast_self]
  simp only [truncf_apply, addf_apply]
  rw [matmulK_apply, shapeCast_self, broadcastTo_a1_ab_apply, h110]
  simp only [h107, h108, ← EReal.coe_mul]
  rw [Spec.coe_sum, ← EReal.coe_add]

/-! ## The logit product [1024, 64] · [64, 1024]: the left operand's second axis against the right's first -/

theorem lhsL_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhsL_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhsL_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhsL_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The product into the zero accumulator at (a, b): row a of the left operand against column b of the right. -/
theorem matmulL_apply (x : FVec Ideal S1024x64 .bf16) (y : FVec Ideal S64x1024 .bf16) (a b : Fin 1024) :
    matmul dot_S1024x64_S64x1024_S1024x1024_1_0_0_1_n_n none x y (constant (F := Ideal) S1024x1024 .f32 0x00000000#32) (ix2 a b)
      = ∑ h : Fin 64, x (ix2 a h) * y (ix2 h b) := by
  refine (Ideal.matmul_constant_zero_apply dot_S1024x64_S64x1024_S1024x1024_1_0_0_1_n_n none x y (ix2 a b)).trans ?_
  rw [← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 a b) ((contrEquiv1 dot_S1024x64_S64x1024_S1024x1024_1_0_0_1_n_n 64 rfl rfl).symm k) = ix2 a k := funext fun c => Fin.ext (by
    match c with
    | ⟨0, _⟩ => exact lhsL_0 _ _
    | ⟨1, _⟩ => exact (lhsL_1 _ _).trans hk)
  have er : dot_S1024x64_S64x1024_S1024x1024_1_0_0_1_n_n.rhsIdx (ix2 a b) ((contrEquiv1 dot_S1024x64_S64x1024_S1024x1024_1_0_0_1_n_n 64 rfl rfl).symm k) = ix2 k b := funext fun c => Fin.ext (by
    match c with
    | ⟨0, _⟩ => exact (rhsL_0 _ _).trans hk
    | ⟨1, _⟩ => exact rhsL_1 _ _)
  rw [el, er]

/-- An exponentiated chunk of logits at (a, b): the exponential of the real logit. -/
theorem pay10_apply (v12 : FVec Ideal S1024x64 .bf16) (v34 : Vec Ideal S64x1024 .bf16)
    (q : Fin 1024 → Fin 64 → ℝ) (k : Fin 64 → Fin 1024 → ℝ)
    (h12 : ∀ a h, v12 (ix2 a h) = ((q a h : ℝ) : EReal)) (h34 : ∀ h b, v34 (ix2 h b) = ((k h b : ℝ) : EReal)) (a b : Fin 1024) :
    k0_pay10 (F := Ideal) v12 v34 (ix2 a b) = ((Real.exp (∑ h : Fin 64, q a h * k h b) : ℝ) : EReal) := by
  unfold k0_pay10
  show FloatOps.exp (matmul dot_S1024x64_S64x1024_S1024x1024_1_0_0_1_n_n none v12 v34 (constant (F := Ideal) S1024x1024 .f32 0x00000000#32) (ix2 a b)) = _
  rw [matmulL_apply]
  simp only [h12, h34, ← EReal.coe_mul]
  rw [Spec.coe_sum, Ideal.exp_def, Ideal.exp_coe]

/-! ## The other exponentiated chunks are the same term over another key block -/

section AnyInstance
variable {F : FTy → Type} [FloatOps F]

theorem pay5_eq (v5 : Vec F S1024x128 .f32) (v6 : Vec F S64x128 .f32) (v8 : Vec F S1x64 .f32) (v14 : Vec F S64x1024 .bf16) :
    k0_pay5 v5 v6 v8 v14 = k0_pay10 (k0_pay4 v5 v6 v8) v14 := rfl
theorem pay7_eq (v5 : Vec F S1024x128 .f32) (v6 : Vec F S64x128 .f32) (v8 : Vec F S1x64 .f32) (v24 : Vec F S64x1024 .bf16) :
    k0_pay7 v5 v6 v8 v24 = k0_pay10 (k0_pay4 v5 v6 v8) v24 := rfl
theorem pay12_eq (v12 : FVec F S1024x64 .bf16) (v : Vec F S64x1024 .bf16) : k0_pay12 v12 v = k0_pay10 v12 v := rfl
theorem pay14_eq (v12 : FVec F S1024x64 .bf16) (v : Vec F S64x1024 .bf16) : k0_pay14 v12 v = k0_pay10 v12 v := rfl
theorem pay17_eq (v12 : FVec F S1024x64 .bf16) (v : Vec F S64x1024 .bf16) : k0_pay17 v12 v = k0_pay10 v12 v := rfl
theorem pay20_eq (v12 : FVec F S1024x64 .bf16) (v : Vec F S64x1024 .bf16) : k0_pay20 v12 v = k0_pay10 v12 v := rfl
theorem pay22_eq (v12 : FVec F S1024x64 .bf16) (v : Vec F S64x1024 .bf16) : k0_pay22 v12 v = k0_pay10 v12 v := rfl

end AnyInstance

/-! ## A stored chunk is the chunk: the change of format and the reshape to the same shape are the identity -/

/-- The chunk narrowed and reshaped to its own shape reads, at every index, the chunk. -/
theorem pay19_apply (v66 : FVec Ideal S1024x1024 .f32) (y : S1024x1024.Idx) :
    (k0_pay19 (F := Ideal) v66 y : EReal) = v66 y := by
  unfold k0_pay19
  rw [shapeCast_self]
  rfl

theorem pay6_apply (v5 : Vec Ideal S1024x128 .f32) (v6 : Vec Ideal S64x128 .f32) (v8 : Vec Ideal S1x64 .f32)
    (v14 : Vec Ideal S64x1024 .bf16) (y : S1024x1024.Idx) :
    (k0_pay6 (F := Ideal) v5 v6 v8 v14 y : EReal) = k0_pay5 (F := Ideal) v5 v6 v8 v14 y :=
  pay19_apply (k0_pay5 (F := Ideal) v5 v6 v8 v14) y
theorem pay9_apply (v5 : Vec Ideal S1024x128 .f32) (v6 : Vec Ideal S64x128 .f32) (v8 : Vec Ideal S1x64 .f32)
    (v24 : Vec Ideal S64x1024 .bf16) (y : S1024x1024.Idx) :
    (k0_pay9 (F := Ideal) v5 v6 v8 v24 y : EReal) = k0_pay7 (F := Ideal) v5 v6 v8 v24 y :=
  pay19_apply (k0_pay7 (F := Ideal) v5 v6 v8 v24) y
theorem pay11_apply (v12 : FVec Ideal S1024x64 .bf16) (v : Vec Ideal S64x1024 .bf16) (y : S1024x1024.Idx) :
    (k0_pay11 (F := Ideal) v12 v y : EReal) = k0_pay10 (F := Ideal) v12 v y :=
  pay19_apply (k0_pay10 (F := Ideal) v12 v) y
theorem pay13_apply (v12 : FVec Ideal S1024x64 .bf16) (v : Vec Ideal S64x1024 .bf16) (y : S1024x1024.Idx) :
    (k0_pay13 (F := Ideal) v12 v y : EReal) = k0_pay12 (F := Ideal) v12 v y :=
  pay19_apply (k0_pay12 (F := Ideal) v12 v) y
theorem pay16_apply (v12 : FVec Ideal S1024x64 .bf16) (v : Vec Ideal S64x1024 .bf16) (y : S1024x1024.Idx) :
    (k0_pay16 (F := Ideal) v12 v y : EReal) = k0_pay14 (F := Ideal) v12 v y :=
  pay19_apply (k0_pay14 (F := Ideal) v12 v) y
theorem pay21_apply (v12 : FVec Ideal S1024x64 .bf16) (v : Vec Ideal S64x1024 .bf16) (y : S1024x1024.Idx) :
    (k0_pay21 (F := Ideal) v12 v y : EReal) = k0_pay20 (F := Ideal) v12 v y :=
  pay19_apply (k0_pay20 (F := Ideal) v12 v) y
theorem pay23_apply (v12 : FVec Ideal S1024x64 .bf16) (v : Vec Ideal S64x1024 .bf16) (y : S1024x1024.Idx) :
    (k0_pay23 (F := Ideal) v12 v y : EReal) = k0_pay22 (F := Ideal) v12 v y :=
  pay19_apply (k0_pay22 (F := Ideal) v12 v) y

end Cert.KMat

end
-- ==== Proof.KOut.lean ====
/-
  The kernel's output side, read at an index over the reals.

  Each slab of 1024 rows `a` contributes to the output `out b j` the sum over `a` of `(bl b a / z a) · p a j`, where
  `p a j` are the slab's exponentials, `bl` the belief's columns under the slab, and `z a` the row's normaliser: the sum
  over all eight blocks of 1024 columns of the row's exponentials. The kernel builds `z` as a running column: a zero
  column plus the row sums of blocks 0 and 1, then of blocks 2, 3, 4, then block 5's row sums apart, then both plus
  the row sums of blocks 6 and 7. Here each of these columns is read at `(a, 0)` as a real sum, given the exponential
  blocks at an index as reals (hypotheses); the belief divided by the normaliser row and the last product are read at
  `(b, j)`; and the accumulator's start (zero) and step (what was there plus the slab's product) are read at an index.

  A row sum is a sum along the second axis viewed as a column: at `(a, 0)` it is `∑ b, r a b`. The division reads the
  normaliser column through a transpose to a row and a repeat over the 16 belief rows: at `(b, a)` the divisor is the
  column at `(a, 0)`. The format change of the quotient is the identity at these values.
-/
import proofs.«122804_g5935644803188_cont_9to1c4b_610_12_alg».proof.Proof.Gen.KernelIdeal.Skeleton
import proofs.«122804_g5935644803188_cont_9to1c4b_610_12_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KOut

open Cert.KernelIdeal Cert.KernelIdeal.Gen Idealize.ShloMosaic Idealize.ShloMosaic.ValueIdx
open scoped BigOperators

/-- A vector of length `n` viewed as an `n × 1` column reads, at `(a, u)`, the vector at `a`: both have row-major
    position `a`. -/
theorem shapeCast_n_n1_apply {α : Type} {n : ℕ} (x : (⟨1, ![n]⟩ : Shape).Idx → α)
    (h : (⟨1, ![n]⟩ : Shape).ShapeCasts ⟨2, ![n, 1]⟩) (a : Fin n) (u : Fin 1) :
    shapeCast ⟨2, ![n, 1]⟩ x h (ix2 a u) = x (ix1 a) :=
  shapeCast_apply x h _ _ (by
    have hu : u.val = 0 := by omega
    rw [Shape.rowMajor_val_two, Shape.rowMajor_val_one]
    show a.val = a.val * 1 + u.val
    rw [hu, Nat.mul_one, Nat.add_zero])

/-- The index a sum along the second axis of a `1024 × 1024` array inserts over row `a` is `(a, k)`. -/
theorem lift_row (a : Fin 1024) (k : Fin 1024) :
    reduces_S1024x1024_S1024.lift (ix1 a) k = ix2 a k :=
  funext fun c => Fin.ext (match c with | ⟨0, _⟩ => rfl | ⟨1, _⟩ => rfl)

/-- A row sum: the sum along the second axis of a `1024 × 1024` array of reals, viewed as a column, is at `(a, 0)` the
    real sum of row `a`. -/
theorem rowsum_apply (x : FVec Ideal S1024x1024 .f32) (r : Fin 1024 → Fin 1024 → ℝ)
    (hx : ∀ a b, x (ix2 a b) = ((r a b : ℝ) : EReal)) (a : Fin 1024) :
    shapeCast S1024x1 (multiReduction (F := Ideal) .add [1] S1024 x 0x00000000#32 reduces_S1024x1024_S1024 (.inl rfl) rfl)
        shapeCasts_S1024_S1024x1 (ix2 a (0 : Fin 1)) = ((∑ b : Fin 1024, r a b : ℝ) : EReal) := by
  refine (shapeCast_n_n1_apply _ shapeCasts_S1024_S1024x1 a 0).trans ?_
  refine (Ideal.multiReduction_add_single x _ reduces_S1024x1024_S1024 (.inl rfl) rfl (ix1 a)).trans ?_
  rw [← Spec.coe_sum]
  refine Finset.sum_congr rfl fun k _ => ?_
  rw [lift_row a k]
  exact hx a k

/-- The first running sum: a zero column plus the row sums of the two exponential blocks. -/
theorem pay8_apply (v5 : Vec Ideal S1024x128 .f32) (v6 : Vec Ideal S64x128 .f32) (v8 : Vec Ideal S1x64 .f32)
    (v14 v24 : Vec Ideal S64x1024 .bf16) (e0 e1 : Fin 1024 → Fin 1024 → ℝ)
    (h0 : ∀ a b, k0_pay5 (F := Ideal) v5 v6 v8 v14 (ix2 a b) = ((e0 a b : ℝ) : EReal))
    (h1 : ∀ a b, k0_pay7 (F := Ideal) v5 v6 v8 v24 (ix2 a b) = ((e1 a b : ℝ) : EReal)) (a : Fin 1024) :
    k0_pay8 (F := Ideal) v5 v6 v8 v14 v24 (ix2 a (0 : Fin 1))
      = (((∑ b, e0 a b) + ∑ b, e1 a b : ℝ) : EReal) := by
  unfold k0_pay8
  simp only [addf_apply, broadcast_apply]
  rw [rowsum_apply (k0_pay5 (F := Ideal) v5 v6 v8 v14) e0 h0 a, rowsum_apply (k0_pay7 (F := Ideal) v5 v6 v8 v24) e1 h1 a]
  show Ideal.ofBits .f32 0x00000000#32 + _ + _ = _
  rw [Ideal.ofBits_zero_f32, zero_add, ← EReal.coe_add]

/-- The second running sum: the column carried in plus the row sums of three more exponential blocks. -/
theorem pay15_apply (v12 : FVec Ideal S1024x64 .bf16) (v29 : FVec Ideal S1024x1 .f32) (v34 v44 v54 : Vec Ideal S64x1024 .bf16)
    (s : Fin 1024 → ℝ) (e2 e3 e4 : Fin 1024 → Fin 1024 → ℝ) (hs : ∀ a, v29 (ix2 a (0 : Fin 1)) = ((s a : ℝ) : EReal))
    (h2 : ∀ a b, k0_pay10 (F := Ideal) v12 v34 (ix2 a b) = ((e2 a b : ℝ) : EReal))
    (h3 : ∀ a b, k0_pay12 (F := Ideal) v12 v44 (ix2 a b) = ((e3 a b : ℝ) : EReal))
    (h4 : ∀ a b, k0_pay14 (F := Ideal) v12 v54 (ix2 a b) = ((e4 a b : ℝ) : EReal)) (a : Fin 1024) :
    k0_pay15 (F := Ideal) v12 v29 v34 v44 v54 (ix2 a (0 : Fin 1))
      = ((((s a + ∑ b, e2 a b) + ∑ b, e3 a b) + ∑ b, e4 a b : ℝ) : EReal) := by
  unfold k0_pay15
  simp only [addf_apply]
  rw [rowsum_apply (k0_pay10 (F := Ideal) v12 v34) e2 h2 a, rowsum_apply (k0_pay12 (F := Ideal) v12 v44) e3 h3 a,
    rowsum_apply (k0_pay14 (F := Ideal) v12 v54) e4 h4 a, hs a, ← EReal.coe_add, ← EReal.coe_add, ← EReal.coe_add]

/-- The row sums of the sixth exponential block. -/
theorem pay18_apply (v12 : FVec Ideal S1024x64 .bf16) (v64 : Vec Ideal S64x1024 .bf16) (e5 : Fin 1024 → Fin 1024 → ℝ)
    (h5 : ∀ a b, k0_pay17 (F := Ideal) v12 v64 (ix2 a b) = ((e5 a b : ℝ) : EReal)) (a : Fin 1024) :
    k0_pay18 (F := Ideal) v12 v64 (ix2 a (0 : Fin 1)) = ((∑ b, e5 a b : ℝ) : EReal) := by
  unfold k0_pay18
  exact rowsum_apply (k0_pay17 (F := Ideal) v12 v64) e5 h5 a

/-- The accumulator's first value is the zero splat. -/
theorem pay3_apply (y : S16x8192.Idx) : k0_pay3 (F := Ideal) y = 0 := by
  unfold k0_pay3
  simp only [broadcast_apply]
  exact Ideal.ofBits_zero_f32

/-- The accumulate step: the block read back, viewed at its own shape, plus the slab's product. -/
theorem pay1_apply (acc : Vec Ideal S16x8192 .f32) (v104 : FVec Ideal S16x8192 .f32) (y : S16x8192.Idx) :
    k0_pay1 (F := Ideal) (k0_pay24 acc) v104 y = acc y + v104 y := by
  unfold k0_pay1 k0_pay24
  simp only [addf_apply, shapeCast_self]

/-- The slab's normaliser column: the two columns carried in plus the row sums of the last two exponential blocks. -/
theorem den_apply (v59 v68 : FVec Ideal S1024x1 .f32) (x6 x7 : FVec Ideal S1024x1024 .f32)
    (s59 s68 : Fin 1024 → ℝ) (e6 e7 : Fin 1024 → Fin 1024 → ℝ)
    (h59 : ∀ a, v59 (ix2 a (0 : Fin 1)) = ((s59 a : ℝ) : EReal)) (h68 : ∀ a, v68 (ix2 a (0 : Fin 1)) = ((s68 a : ℝ) : EReal))
    (h6 : ∀ a b, x6 (ix2 a b) = ((e6 a b : ℝ) : EReal)) (h7 : ∀ a b, x7 (ix2 a b) = ((e7 a b : ℝ) : EReal)) (a : Fin 1024) :
    addf (addf (addf v59 v68)
        (shapeCast S1024x1 (multiReduction (F := Ideal) .add [1] S1024 x6 0x00000000#32 reduces_S1024x1024_S1024 (.inl rfl) rfl) shapeCasts_S1024_S1024x1))
        (shapeCast S1024x1 (multiReduction (F := Ideal) .add [1] S1024 x7 0x00000000#32 reduces_S1024x1024_S1024 (.inl rfl) rfl) shapeCasts_S1024_S1024x1)
        (ix2 a (0 : Fin 1))
      = ((((s59 a + s68 a) + ∑ b, e6 a b) + ∑ b, e7 a b : ℝ) : EReal) := by
  simp only [addf_apply]
  rw [rowsum_apply x6 e6 h6 a, rowsum_apply x7 e7 h7 a, h59 a, h68 a, ← EReal.coe_add, ← EReal.coe_add, ← EReal.coe_add]

/-- The belief divided by the normaliser: the column `d` laid as a row, repeated over the 16 belief rows, divides the
    belief elementwise; at `(b, a)` the quotient is `bl b a / z a`. -/
theorem quot_apply (v97 : Vec Ideal S16x1024 .f32) (d : FVec Ideal S1024x1 .f32) (bl : Fin 16 → Fin 1024 → ℝ) (z : Fin 1024 → ℝ)
    (h97 : ∀ b a, v97 (ix2 b a) = ((bl b a : ℝ) : EReal)) (hd : ∀ a, d (ix2 a (0 : Fin 1)) = ((z a : ℝ) : EReal))
    (hz : ∀ a, z a ≠ 0) (b : Fin 16) (a : Fin 1024) :
    (truncf .bf16 (divf v97 (broadcastTo S16x1024 (transpose S1x1024 [1, 0] d transposes_S1024x1_p1_0_S1x1024) broadcasts_S1x1024_S16x1024))
        bitsLt_bf16_f32 : FVec Ideal S16x1024 .bf16) (ix2 b a) = ((bl b a / z a : ℝ) : EReal) := by
  rw [truncf_apply, divf_apply]
  rw [broadcastTo_1b_ab_apply _ broadcasts_S1x1024_S16x1024 b a, transpose_ix2_apply d transposes_S1024x1_p1_0_S1x1024 (0 : Fin 1) a,
    h97 b a, hd a, Spec.div_coe_coe _ _ (hz a)]

/-- The last product's left index on its free axis is the output row. -/
theorem lhs_last_0 (i : S16x8192.Idx) (q : dot_S16x1024_S1024x8192_S16x8192_1_0_0_1_n_n.contr.Idx) :
    (dot_S16x1024_S1024x8192_S16x8192_1_0_0_1_n_n.lhsIdx i q 0).val = (i 0).val := by
  unfold DotDims.lhsIdx
  rw [dif_neg (show ¬(0 : Fin S16x1024.rank) ∈ dot_S16x1024_S1024x8192_S16x8192_1_0_0_1_n_n.lhsBatch by decide), dif_pos (show (0 : Fin S16x1024.rank) ∈ dot_S16x1024_S1024x8192_S16x8192_1_0_0_1_n_n.lhsNonContracting by decide)]
  rfl
/-- … and on its contracted axis the contraction coordinate. -/
theorem lhs_last_1 (i : S16x8192.Idx) (q : dot_S16x1024_S1024x8192_S16x8192_1_0_0_1_n_n.contr.Idx) :
    (dot_S16x1024_S1024x8192_S16x8192_1_0_0_1_n_n.lhsIdx i q 1).val = (q ⟨0, by decide⟩).val :=
  dot_S16x1024_S1024x8192_S16x8192_1_0_0_1_n_n.lhsIdx_val_of_single rfl i q
/-- The right index on its contracted axis is the contraction coordinate. -/
theorem rhs_last_0 (i : S16x8192.Idx) (q : dot_S16x1024_S1024x8192_S16x8192_1_0_0_1_n_n.contr.Idx) :
    (dot_S16x1024_S1024x8192_S16x8192_1_0_0_1_n_n.rhsIdx i q 0).val = (q ⟨0, by decide⟩).val :=
  dot_S16x1024_S1024x8192_S16x8192_1_0_0_1_n_n.rhsIdx_val_of_single rfl i q
/-- … and on its free axis the output column. -/
theorem rhs_last_1 (i : S16x8192.Idx) (q : dot_S16x1024_S1024x8192_S16x8192_1_0_0_1_n_n.contr.Idx) :
    (dot_S16x1024_S1024x8192_S16x8192_1_0_0_1_n_n.rhsIdx i q 1).val = (i 1).val := by
  unfold DotDims.rhsIdx
  rw [dif_neg (show ¬(1 : Fin S1024x8192.rank) ∈ dot_S16x1024_S1024x8192_S16x8192_1_0_0_1_n_n.rhsBatch by decide), dif_pos (show (1 : Fin S1024x8192.rank) ∈ dot_S16x1024_S1024x8192_S16x8192_1_0_0_1_n_n.rhsNonContracting by decide)]
  rfl

/-- The last product into the zero splat, at `(b, j)`: the sum over the slab's rows `a` of left `(b, a)` times right `(a, j)`. -/
theorem matmul_last_apply (l : FVec Ideal S16x1024 .bf16) (r : FVec Ideal S1024x8192 .bf16) (b : Fin 16) (j : Fin 8192) :
    matmul dot_S16x1024_S1024x8192_S16x8192_1_0_0_1_n_n none l r (constant (F := Ideal) S16x8192 .f32 0x00000000#32) (ix2 b j)
      = ∑ a : Fin 1024, l (ix2 b a) * r (ix2 a j) := by
  refine (Ideal.matmul_constant_zero_apply dot_S16x1024_S1024x8192_S16x8192_1_0_0_1_n_n none l r (ix2 b j)).trans ?_
  rw [← Equiv.sum_comp (contrEquiv1 dot_S16x1024_S1024x8192_S16x8192_1_0_0_1_n_n 1024 rfl rfl).symm]
  refine Finset.sum_congr rfl fun k _ => ?_
  have hk := contrEquiv1_symm_val dot_S16x1024_S1024x8192_S16x8192_1_0_0_1_n_n 1024 rfl rfl k
  have el : dot_S16x1024_S1024x8192_S16x8192_1_0_0_1_n_n.lhsIdx (ix2 b j) ((contrEquiv1 dot_S16x1024_S1024x8192_S16x8192_1_0_0_1_n_n 1024 rfl rfl).symm k) = ix2 b k := funext fun a => Fin.ext (by
    match a with
    | ⟨0, _⟩ => exact lhs_last_0 _ _
    | ⟨1, _⟩ => exact (lhs_last_1 _ _).trans hk)
  have er : dot_S16x1024_S1024x8192_S16x8192_1_0_0_1_n_n.rhsIdx (ix2 b j) ((contrEquiv1 dot_S16x1024_S1024x8192_S16x8192_1_0_0_1_n_n 1024 rfl rfl).symm k) = ix2 k j := funext fun a => Fin.ext (by
    match a with
    | ⟨0, _⟩ => exact (rhs_last_0 _ _).trans hk
    | ⟨1, _⟩ => exact rhs_last_1 _ _)
  rw [el, er]

/-- The slab's contribution to the output: the belief divided by the slab's normaliser, times the slab's exponentials. -/
theorem pay25_apply (v12 : FVec Ideal S1024x64 .bf16) (v59 v68 : FVec Ideal S1024x1 .f32) (v74 v84 : Vec Ideal S64x1024 .bf16)
    (v97 : Vec Ideal S16x1024 .f32) (v103 : Vec Ideal S1024x8192 .bf16)
    (s59 s68 : Fin 1024 → ℝ) (e6 e7 : Fin 1024 → Fin 1024 → ℝ) (bl : Fin 16 → Fin 1024 → ℝ) (p : Fin 1024 → Fin 8192 → ℝ)
    (h59 : ∀ a, v59 (ix2 a (0 : Fin 1)) = ((s59 a : ℝ) : EReal)) (h68 : ∀ a, v68 (ix2 a (0 : Fin 1)) = ((s68 a : ℝ) : EReal))
    (h6 : ∀ a b, k0_pay20 (F := Ideal) v12 v74 (ix2 a b) = ((e6 a b : ℝ) : EReal))
    (h7 : ∀ a b, k0_pay22 (F := Ideal) v12 v84 (ix2 a b) = ((e7 a b : ℝ) : EReal))
    (h97 : ∀ b a, v97 (ix2 b a) = ((bl b a : ℝ) : EReal)) (h103 : ∀ a j, v103 (ix2 a j) = ((p a j : ℝ) : EReal))
    (hz : ∀ a, ((s59 a + s68 a) + ∑ b, e6 a b) + ∑ b, e7 a b ≠ 0) (b : Fin 16) (j : Fin 8192) :
    k0_pay25 (F := Ideal) v12 v59 v68 v74 v84 v97 v103 (ix2 b j)
      = ((∑ a : Fin 1024, bl b a / (((s59 a + s68 a) + ∑ b', e6 a b') + ∑ b', e7 a b') * p a j : ℝ) : EReal) := by
  unfold k0_pay25
  refine (matmul_last_apply _ v103 b j).trans ?_
  rw [← Spec.coe_sum]
  refine Finset.sum_congr rfl fun a _ => ?_
  rw [quot_apply v97 _ bl (fun a => ((s59 a + s68 a) + ∑ b, e6 a b) + ∑ b, e7 a b) h97
      (den_apply v59 v68 (k0_pay20 (F := Ideal) v12 v74) (k0_pay22 (F := Ideal) v12 v84) s59 s68 e6 e7 h59 h68 h6 h7) hz b a,
    h103 a j, ← EReal.coe_mul]

end Cert.KOut
-- ==== Proof.SlabSum.lean ====
/-
  Sums over 8192 states taken in eight slabs of 1024.

  `row t a = 1024·t + a` is state `a` of slab `t`. `psum f n` is the sum of `f` over the first `n` slabs; it starts at
  zero, grows by one slab's sum at a time, and after eight slabs is the sum over all states. The same law read along
  a row of logits says that eight chunk sums added left to right are the whole row's sum.
-/
import proofs.«122804_g5935644803188_cont_9to1c4b_610_12_alg».proof.Proof.Spec

noncomputable section

namespace Cert.Spec

/-- State `a` of slab `t`. -/
def row (t : Fin 8) (a : Fin 1024) : Fin 8192 := ⟨1024 * t.val + a.val, by have := t.isLt; have := a.isLt; omega⟩

@[simp] theorem row_val (t : Fin 8) (a : Fin 1024) : (row t a).val = 1024 * t.val + a.val := rfl

/-- A function of the states, extended by zero to all naturals. -/
def ext (f : Fin 8192 → ℝ) (n : ℕ) : ℝ := if h : n < 8192 then f ⟨n, h⟩ else 0

theorem ext_row (f : Fin 8192 → ℝ) (t : Fin 8) (a : Fin 1024) : ext f (1024 * t.val + a.val) = f (row t a) := by
  have h : 1024 * t.val + a.val < 8192 := by have := t.isLt; have := a.isLt; omega
  unfold ext; rw [dif_pos h]; rfl

theorem sum_ext (f : Fin 8192 → ℝ) : (∑ j : Fin 8192, f j) = ∑ n ∈ Finset.range 8192, ext f n := by
  rw [← Fin.sum_univ_eq_sum_range]
  refine Finset.sum_congr rfl fun j _ => ?_
  unfold ext; rw [dif_pos j.isLt]

/-- The sum of `f` over the first `n` slabs. -/
def psum (f : Fin 8192 → ℝ) (n : ℕ) : ℝ := ∑ i ∈ Finset.range (1024 * n), ext f i

theorem psum_zero (f : Fin 8192 → ℝ) : psum f 0 = 0 := by simp [psum]

/-- One more slab adds that slab's sum. -/
theorem psum_succ (f : Fin 8192 → ℝ) (t : Fin 8) : psum f (t.val + 1) = psum f t.val + ∑ a : Fin 1024, f (row t a) := by
  unfold psum
  rw [Nat.mul_succ, Finset.sum_range_add, ← Fin.sum_univ_eq_sum_range (fun a => ext f (1024 * t.val + a)) 1024]
  congr 1
  exact Finset.sum_congr rfl fun a _ => ext_row f t a

/-- Eight slabs are all the states. -/
theorem psum_eight (f : Fin 8192 → ℝ) : psum f 8 = ∑ j : Fin 8192, f j := by
  rw [sum_ext]; rfl

/-- Eight chunk sums added left to right are the whole sum. -/
theorem sum_chunks (f : Fin 8192 → ℝ) :
    ((((((((∑ b : Fin 1024, f (row 0 b)) + ∑ b : Fin 1024, f (row 1 b)) + ∑ b : Fin 1024, f (row 2 b)) + ∑ b : Fin 1024, f (row 3 b))
      + ∑ b : Fin 1024, f (row 4 b)) + ∑ b : Fin 1024, f (row 5 b)) + ∑ b : Fin 1024, f (row 6 b)) + ∑ b : Fin 1024, f (row 7 b))
      = ∑ j : Fin 8192, f j := by
  rw [← psum_eight f]
  have h0 := psum_succ f 0
  have h1 := psum_succ f 1
  have h2 := psum_succ f 2
  have h3 := psum_succ f 3
  have h4 := psum_succ f 4
  have h5 := psum_succ f 5
  have h6 := psum_succ f 6
  have h7 := psum_succ f 7
  have hz := psum_zero f
  simp only [Fin.val_zero, Fin.val_one, zero_add] at h0 h1
  norm_num at h2 h3 h4 h5 h6 h7
  rw [h7, h6, h5, h4, h3, h2, h1, h0, hz, zero_add]

end Cert.Spec

end
-- ==== Proof.KValue.lean ====
/-
  One grid point of the kernel over the reals.

  With real inputs, real key features `K h j = k j h` and a real running result, the value `slab` of grid point `t` at
  `(b, j)` is the running result plus the slab's share of the output, `∑ a, b b (row t a) · t (row t a) j`: the slab's
  queries are `q`, each chunk of exponentials is `exp (l (row t a) (row c b))`, the eight chunk sums are the row's
  normaliser `z`, the buffer of exponentials read whole is `exp (l (row t a) j)`, and `(b / z) · p = b · (p / z)`.
-/
import proofs.«122804_g5935644803188_cont_9to1c4b_610_12_alg».proof.Proof.KSlab
import proofs.«122804_g5935644803188_cont_9to1c4b_610_12_alg».proof.Proof.KMat
import proofs.«122804_g5935644803188_cont_9to1c4b_610_12_alg».proof.Proof.KOut
import proofs.«122804_g5935644803188_cont_9to1c4b_610_12_alg».proof.Proof.SlabSum
import Idealize.ShloMosaic.Lib.ValueIdx
import Idealize.ShloMosaic.Lib.Pipeline.Value

set_option maxRecDepth 16384

noncomputable section

namespace Cert.KValue

open Cert.KernelIdeal Cert.KernelIdeal.Gen Cert.KSlab Cert.Spec
open Idealize.ShloMosaic Idealize.ShloMosaic.ValueIdx

/-! ## Block reads at an index -/

/-- Row `a` of the slab's embedding rows is row `row t a` of the table. -/
theorem ldE_apply (i : grid0.Coords) (t : Fin 8) (hi : (i 0).val = t.val) (x1 : Vec Ideal S8192x128 .f32) (a : Fin 1024) (d : Fin 128) :
    ldE (F := Ideal) i x1 (ix2 a d) = x1 (ix2 (row t a) d) := by
  show x1 ((Rect.unit (s := S8192x128) (k0_off1 i) S1024x128.size (k0_off1_inb i)).idx (ix2 a d)) = _
  refine congrArg x1 (funext fun ax => Fin.ext ?_)
  match ax with
  | ⟨0, _⟩ =>
    show k0_off1 i 0 + 1 * a.val = 1024 * t.val + a.val
    rw [k0_off1_eq]; show 1024 * (i 0).val + 1 * a.val = _; omega
  | ⟨1, _⟩ =>
    show k0_off1 i 1 + 1 * d.val = d.val
    rw [k0_off1_eq]; show 0 + 1 * d.val = _; omega

/-- Column `a` of the slab's belief columns is column `row t a` of the belief. -/
theorem ldB_apply (i : grid0.Coords) (t : Fin 8) (hi : (i 0).val = t.val) (x0 : Vec Ideal S16x8192 .f32) (b : Fin 16) (a : Fin 1024) :
    ldB (F := Ideal) i x0 (ix2 b a) = x0 (ix2 b (row t a)) := by
  show x0 ((Rect.unit (s := S16x8192) (k0_off2 i) S16x1024.size (k0_off2_inb i)).idx (ix2 b a)) = _
  refine congrArg x0 (funext fun ax => Fin.ext ?_)
  match ax with
  | ⟨0, _⟩ =>
    show k0_off2 i 0 + 1 * b.val = b.val
    rw [k0_off2_eq]; show 0 + 1 * b.val = _; omega
  | ⟨1, _⟩ =>
    show k0_off2 i 1 + 1 * a.val = 1024 * t.val + a.val
    rw [k0_off2_eq]; show 1024 * (i 0).val + 1 * a.val = _; omega

theorem ldK0_apply (K : Vec Ideal S64x8192 .bf16) (h : Fin 64) (b : Fin 1024) :
    ldK0 (F := Ideal) K (ix2 h b) = K (ix2 h (row 0 b)) := by
  show K ((Rect.unit (s := S64x8192) ![0, 0] S64x1024.size inb_S64x8192_S64x1024_0_0).idx (ix2 h b)) = _
  refine congrArg K (funext fun ax => Fin.ext ?_)
  match ax with
  | ⟨0, _⟩ => show 0 + 1 * h.val = h.val; omega
  | ⟨1, _⟩ => show 0 + 1 * b.val = 1024 * 0 + b.val; omega

theorem ldK1_apply (K : Vec Ideal S64x8192 .bf16) (h : Fin 64) (b : Fin 1024) :
    ldK1 (F := Ideal) K (ix2 h b) = K (ix2 h (row 1 b)) := by
  show K ((Rect.unit (s := S64x8192) ![0, 1024] S64x1024.size inb_S64x8192_S64x1024_0_1024).idx (ix2 h b)) = _
  refine congrArg K (funext fun ax => Fin.ext ?_)
  match ax with
  | ⟨0, _⟩ => show 0 + 1 * h.val = h.val; omega
  | ⟨1, _⟩ => show 1024 + 1 * b.val = 1024 * 1 + b.val; omega

theorem ldK2_apply (K : Vec Ideal S64x8192 .bf16) (h : Fin 64) (b : Fin 1024) :
    ldK2 (F := Ideal) K (ix2 h b) = K (ix2 h (row 2 b)) := by
  show K ((Rect.unit (s := S64x8192) ![0, 2048] S64x1024.size inb_S64x8192_S64x1024_0_2048).idx (ix2 h b)) = _
  refine congrArg K (funext fun ax => Fin.ext ?_)
  match ax with
  | ⟨0, _⟩ => show 0 + 1 * h.val = h.val; omega
  | ⟨1, _⟩ => show 2048 + 1 * b.val = 1024 * 2 + b.val; omega

theorem ldK3_apply (K : Vec Ideal S64x8192 .bf16) (h : Fin 64) (b : Fin 1024) :
    ldK3 (F := Ideal) K (ix2 h b) = K (ix2 h (row 3 b)) := by
  show K ((Rect.unit (s := S64x8192) ![0, 3072] S64x1024.size inb_S64x8192_S64x1024_0_3072).idx (ix2 h b)) = _
  refine congrArg K (funext fun ax => Fin.ext ?_)
  match ax with
  | ⟨0, _⟩ => show 0 + 1 * h.val = h.val; omega
  | ⟨1, _⟩ => show 3072 + 1 * b.val = 1024 * 3 + b.val; omega

theorem ldK4_apply (K : Vec Ideal S64x8192 .bf16) (h : Fin 64) (b : Fin 1024) :
    ldK4 (F := Ideal) K (ix2 h b) = K (ix2 h (row 4 b)) := by
  show K ((Rect.unit (s := S64x8192) ![0, 4096] S64x1024.size inb_S64x8192_S64x1024_0_4096).idx (ix2 h b)) = _
  refine congrArg K (funext fun ax => Fin.ext ?_)
  match ax with
  | ⟨0, _⟩ => show 0 + 1 * h.val = h.val; omega
  | ⟨1, _⟩ => show 4096 + 1 * b.val = 1024 * 4 + b.val; omega

theorem ldK5_apply (K : Vec Ideal S64x8192 .bf16) (h : Fin 64) (b : Fin 1024) :
    ldK5 (F := Ideal) K (ix2 h b) = K (ix2 h (row 5 b)) := by
  show K ((Rect.unit (s := S64x8192) ![0, 5120] S64x1024.size inb_S64x8192_S64x1024_0_5120).idx (ix2 h b)) = _
  refine congrArg K (funext fun ax => Fin.ext ?_)
  match ax with
  | ⟨0, _⟩ => show 0 + 1 * h.val = h.val; omega
  | ⟨1, _⟩ => show 5120 + 1 * b.val = 1024 * 5 + b.val; omega

theorem ldK6_apply (K : Vec Ideal S64x8192 .bf16) (h : Fin 64) (b : Fin 1024) :
    ldK6 (F := Ideal) K (ix2 h b) = K (ix2 h (row 6 b)) := by
  show K ((Rect.unit (s := S64x8192) ![0, 6144] S64x1024.size inb_S64x8192_S64x1024_0_6144).idx (ix2 h b)) = _
  refine congrArg K (funext fun ax => Fin.ext ?_)
  match ax with
  | ⟨0, _⟩ => show 0 + 1 * h.val = h.val; omega
  | ⟨1, _⟩ => show 6144 + 1 * b.val = 1024 * 6 + b.val; omega

theorem ldK7_apply (K : Vec Ideal S64x8192 .bf16) (h : Fin 64) (b : Fin 1024) :
    ldK7 (F := Ideal) K (ix2 h b) = K (ix2 h (row 7 b)) := by
  show K ((Rect.unit (s := S64x8192) ![0, 7168] S64x1024.size inb_S64x8192_S64x1024_0_7168).idx (ix2 h b)) = _
  refine congrArg K (funext fun ax => Fin.ext ?_)
  match ax with
  | ⟨0, _⟩ => show 0 + 1 * h.val = h.val; omega
  | ⟨1, _⟩ => show 7168 + 1 * b.val = 1024 * 7 + b.val; omega

/-! ## The slab's queries and exponentials -/

section
variable (R : RIn) (t : Fin 8) (i : grid0.Coords) (hi : (i 0).val = t.val)
  (x1 : Vec Ideal S8192x128 .f32) (x2 : Vec Ideal S64x128 .f32) (x3 : Vec Ideal S1x64 .f32)
  (h1 : IsReal2 x1 R.e) (h2 : IsReal2 x2 R.wq) (h3 : ∀ h, x3 (ix2 (0 : Fin 1) h) = ((R.bq h : ℝ) : EReal))

include hi h1 h2 h3

/-- The slab's queries are `q` of its rows. -/
theorem Q_apply (a : Fin 1024) (h : Fin 64) :
    Q (F := Ideal) i x1 x2 x3 (ix2 a h) = ((qr R (row t a) h : ℝ) : EReal) := by
  unfold Q
  exact KMat.pay4_apply _ _ _ (fun a d => R.e (row t a) d) R.wq R.bq
    (fun a d => by rw [ldE_apply i t hi]; exact h1 _ _) h2 h3 a h

/-- A chunk of exponentials: the slab's queries against chunk `c` of the keys. -/
theorem chunk_apply (Kc : Vec Ideal S64x1024 .bf16) (c : Fin 8)
    (hKc : ∀ h b, Kc (ix2 h b) = ((kr R (row c b) h : ℝ) : EReal)) (a b : Fin 1024) :
    k0_pay10 (F := Ideal) (Q i x1 x2 x3) Kc (ix2 a b) = ((Real.exp (lr R (row t a) (row c b)) : ℝ) : EReal) :=
  KMat.pay10_apply _ _ (fun a h => qr R (row t a) h) (fun h b => kr R (row c b) h)
    (Q_apply R t i hi x1 x2 x3 h1 h2 h3) hKc a b

/-- The buffer of exponentials, read whole: `exp` of the slab's logits against every state. -/
theorem P16_apply (K : Vec Ideal S64x8192 .bf16) (hK : ∀ h j, K (ix2 h j) = ((kr R j h : ℝ) : EReal)) (a : Fin 1024) (j : Fin 8192) :
    P16 (F := Ideal) i x1 x2 x3 K (ix2 a j) = ((Real.exp (lr R (row t a) j) : ℝ) : EReal) := by
  unfold P16
  refine View.canon_apply_of_pieces (Val := Elt Ideal)
    (fun y : S1024x8192.Idx => ((Real.exp (lr R (row t (y 0)) (y 1)) : ℝ) : EReal)) (expPieces i x1 x2 x3 K) ?_ (ix2 a j)
    (expPieces_cover i x1 x2 x3 K (ix2 a j))
  intro p hp x
  unfold expPieces at hp
  simp only [List.mem_cons, List.not_mem_nil, or_false] at hp
  rcases hp with rfl | rfl | rfl | rfl | rfl | rfl | rfl | rfl
  · obtain ⟨a', b', rfl⟩ : ∃ (a' : Fin 1024) (b' : Fin 1024), x = ix2 a' b' := ⟨x 0, x 1, eq_ix2 x⟩
    have e : (Rect.unit (s := S1024x8192) ![0, 7168] S1024x1024.size inb_S1024x8192_S1024x1024_0_7168).emb (ix2 a' b') = ix2 a' (row 7 b') :=
      funext fun ax => Fin.ext (by
        match ax with
        | ⟨0, _⟩ => show 0 + 1 * a'.val = a'.val; omega
        | ⟨1, _⟩ => show 7168 + 1 * b'.val = 1024 * 7 + b'.val; omega)
    dsimp only
    rw [e]
    refine (KMat.pay23_apply _ _ _).trans ?_
    rw [KMat.pay22_eq]
    exact chunk_apply R t i hi x1 x2 x3 h1 h2 h3 _ 7 (fun h b => by rw [ldK7_apply]; exact hK _ _) a' b'
  · obtain ⟨a', b', rfl⟩ : ∃ (a' : Fin 1024) (b' : Fin 1024), x = ix2 a' b' := ⟨x 0, x 1, eq_ix2 x⟩
    have e : (Rect.unit (s := S1024x8192) ![0, 6144] S1024x1024.size inb_S1024x8192_S1024x1024_0_6144).emb (ix2 a' b') = ix2 a' (row 6 b') :=
      funext fun ax => Fin.ext (by
        match ax with
        | ⟨0, _⟩ => show 0 + 1 * a'.val = a'.val; omega
        | ⟨1, _⟩ => show 6144 + 1 * b'.val = 1024 * 6 + b'.val; omega)
    dsimp only
    rw [e]
    refine (KMat.pay21_apply _ _ _).trans ?_
    rw [KMat.pay20_eq]
    exact chunk_apply R t i hi x1 x2 x3 h1 h2 h3 _ 6 (fun h b => by rw [ldK6_apply]; exact hK _ _) a' b'
  · obtain ⟨a', b', rfl⟩ : ∃ (a' : Fin 1024) (b' : Fin 1024), x = ix2 a' b' := ⟨x 0, x 1, eq_ix2 x⟩
    have e : (Rect.unit (s := S1024x8192) ![0, 5120] S1024x1024.size inb_S1024x8192_S1024x1024_0_5120).emb (ix2 a' b') = ix2 a' (row 5 b') :=
      funext fun ax => Fin.ext (by
        match ax with
        | ⟨0, _⟩ => show 0 + 1 * a'.val = a'.val; omega
        | ⟨1, _⟩ => show 5120 + 1 * b'.val = 1024 * 5 + b'.val; omega)
    dsimp only
    rw [e]
    refine (KMat.pay19_apply _ _).trans ?_
    rw [KMat.pay17_eq]
    exact chunk_apply R t i hi x1 x2 x3 h1 h2 h3 _ 5 (fun h b => by rw [ldK5_apply]; exact hK _ _) a' b'
  · obtain ⟨a', b', rfl⟩ : ∃ (a' : Fin 1024) (b' : Fin 1024), x = ix2 a' b' := ⟨x 0, x 1, eq_ix2 x⟩
    have e : (Rect.unit (s := S1024x8192) ![0, 4096] S1024x1024.size inb_S1024x8192_S1024x1024_0_4096).emb (ix2 a' b') = ix2 a' (row 4 b') :=
      funext fun ax => Fin.ext (by
        match ax with
        | ⟨0, _⟩ => show 0 + 1 * a'.val = a'.val; omega
        | ⟨1, _⟩ => show 4096 + 1 * b'.val = 1024 * 4 + b'.val; omega)
    dsimp only
    rw [e]
    refine (KMat.pay16_apply _ _ _).trans ?_
    rw [KMat.pay14_eq]
    exact chunk_apply R t i hi x1 x2 x3 h1 h2 h3 _ 4 (fun h b => by rw [ldK4_apply]; exact hK _ _) a' b'
  · obtain ⟨a', b', rfl⟩ : ∃ (a' : Fin 1024) (b' : Fin 1024), x = ix2 a' b' := ⟨x 0, x 1, eq_ix2 x⟩
    have e : (Rect.unit (s := S1024x8192) ![0, 3072] S1024x1024.size inb_S1024x8192_S1024x1024_0_3072).emb (ix2 a' b') = ix2 a' (row 3 b') :=
      funext fun ax => Fin.ext (by
        match ax with
        | ⟨0, _⟩ => show 0 + 1 * a'.val = a'.val; omega
        | ⟨1, _⟩ => show 3072 + 1 * b'.val = 1024 * 3 + b'.val; omega)
    dsimp only
    rw [e]
    refine (KMat.pay13_apply _ _ _).trans ?_
    rw [KMat.pay12_eq]
    exact chunk_apply R t i hi x1 x2 x3 h1 h2 h3 _ 3 (fun h b => by rw [ldK3_apply]; exact hK _ _) a' b'
  · obtain ⟨a', b', rfl⟩ : ∃ (a' : Fin 1024) (b' : Fin 1024), x = ix2 a' b' := ⟨x 0, x 1, eq_ix2 x⟩
    have e : (Rect.unit (s := S1024x8192) ![0, 2048] S1024x1024.size inb_S1024x8192_S1024x1024_0_2048).emb (ix2 a' b') = ix2 a' (row 2 b') :=
      funext fun ax => Fin.ext (by
        match ax with
        | ⟨0, _⟩ => show 0 + 1 * a'.val = a'.val; omega
        | ⟨1, _⟩ => show 2048 + 1 * b'.val = 1024 * 2 + b'.val; omega)
    dsimp only
    rw [e]
    refine (KMat.pay11_apply _ _ _).trans ?_
    exact chunk_apply R t i hi x1 x2 x3 h1 h2 h3 _ 2 (fun h b => by rw [ldK2_apply]; exact hK _ _) a' b'
  · obtain ⟨a', b', rfl⟩ : ∃ (a' : Fin 1024) (b' : Fin 1024), x = ix2 a' b' := ⟨x 0, x 1, eq_ix2 x⟩
    have e : (Rect.unit (s := S1024x8192) ![0, 1024] S1024x1024.size inb_S1024x8192_S1024x1024_0_1024).emb (ix2 a' b') = ix2 a' (row 1 b') :=
      funext fun ax => Fin.ext (by
        match ax with
        | ⟨0, _⟩ => show 0 + 1 * a'.val = a'.val; omega
        | ⟨1, _⟩ => show 1024 + 1 * b'.val = 1024 * 1 + b'.val; omega)
    dsimp only
    rw [e]
    refine (KMat.pay9_apply _ _ _ _ _).trans ?_
    rw [KMat.pay7_eq]
    exact chunk_apply R t i hi x1 x2 x3 h1 h2 h3 _ 1 (fun h b => by rw [ldK1_apply]; exact hK _ _) a' b'
  · obtain ⟨a', b', rfl⟩ : ∃ (a' : Fin 1024) (b' : Fin 1024), x = ix2 a' b' := ⟨x 0, x 1, eq_ix2 x⟩
    have e : (Rect.unit (s := S1024x8192) ![0, 0] S1024x1024.size inb_S1024x8192_S1024x1024_0_0).emb (ix2 a' b') = ix2 a' (row 0 b') :=
      funext fun ax => Fin.ext (by
        match ax with
        | ⟨0, _⟩ => show 0 + 1 * a'.val = a'.val; omega
        | ⟨1, _⟩ => show 0 + 1 * b'.val = 1024 * 0 + b'.val; omega)
    dsimp only
    rw [e]
    refine (KMat.pay6_apply _ _ _ _ _).trans ?_
    rw [KMat.pay5_eq]
    exact chunk_apply R t i hi x1 x2 x3 h1 h2 h3 _ 0 (fun h b => by rw [ldK0_apply]; exact hK _ _) a' b'

end

/-! ## The grid point's value -/

/-- Grid point `t` adds its slab's share of the output to the running result. -/
theorem slab_apply (R : RIn) (t : Fin 8) (i : grid0.Coords) (hi : (i 0).val = t.val)
    (x0 : Vec Ideal S16x8192 .f32) (x1 : Vec Ideal S8192x128 .f32) (x2 : Vec Ideal S64x128 .f32) (x3 : Vec Ideal S1x64 .f32)
    (K : Vec Ideal S64x8192 .bf16) (acc : Vec Ideal S16x8192 .f32)
    (h0 : IsReal2 x0 R.b) (h1 : IsReal2 x1 R.e) (h2 : IsReal2 x2 R.wq) (h3 : ∀ h, x3 (ix2 (0 : Fin 1) h) = ((R.bq h : ℝ) : EReal))
    (hK : ∀ h j, K (ix2 h j) = ((kr R j h : ℝ) : EReal)) (pa : Fin 16 → Fin 8192 → ℝ)
    (hacc : ∀ b j, acc (ix2 b j) = ((pa b j : ℝ) : EReal)) (b : Fin 16) (j : Fin 8192) :
    slab (F := Ideal) i x0 x1 x2 x3 K acc (ix2 b j)
      = ((pa b j + ∑ a : Fin 1024, R.b b (row t a) * tr R (row t a) j : ℝ) : EReal) := by
  have hE : ∀ (c : Fin 8) (Kc : Vec Ideal S64x1024 .bf16), (∀ h b, Kc (ix2 h b) = ((kr R (row c b) h : ℝ) : EReal)) →
      ∀ a b, k0_pay10 (F := Ideal) (Q i x1 x2 x3) Kc (ix2 a b) = ((Real.exp (lr R (row t a) (row c b)) : ℝ) : EReal) :=
    fun c Kc hKc => chunk_apply R t i hi x1 x2 x3 h1 h2 h3 Kc c hKc
  have k0 : ∀ h b, ldK0 (F := Ideal) K (ix2 h b) = ((kr R (row 0 b) h : ℝ) : EReal) := fun h b => by rw [ldK0_apply]; exact hK _ _
  have k1 : ∀ h b, ldK1 (F := Ideal) K (ix2 h b) = ((kr R (row 1 b) h : ℝ) : EReal) := fun h b => by rw [ldK1_apply]; exact hK _ _
  have k2 : ∀ h b, ldK2 (F := Ideal) K (ix2 h b) = ((kr R (row 2 b) h : ℝ) : EReal) := fun h b => by rw [ldK2_apply]; exact hK _ _
  have k3 : ∀ h b, ldK3 (F := Ideal) K (ix2 h b) = ((kr R (row 3 b) h : ℝ) : EReal) := fun h b => by rw [ldK3_apply]; exact hK _ _
  have k4 : ∀ h b, ldK4 (F := Ideal) K (ix2 h b) = ((kr R (row 4 b) h : ℝ) : EReal) := fun h b => by rw [ldK4_apply]; exact hK _ _
  have k5 : ∀ h b, ldK5 (F := Ideal) K (ix2 h b) = ((kr R (row 5 b) h : ℝ) : EReal) := fun h b => by rw [ldK5_apply]; exact hK _ _
  have k6 : ∀ h b, ldK6 (F := Ideal) K (ix2 h b) = ((kr R (row 6 b) h : ℝ) : EReal) := fun h b => by rw [ldK6_apply]; exact hK _ _
  have k7 : ∀ h b, ldK7 (F := Ideal) K (ix2 h b) = ((kr R (row 7 b) h : ℝ) : EReal) := fun h b => by rw [ldK7_apply]; exact hK _ _
  -- the row sums so far, chunk by chunk
  have s29 := KOut.pay8_apply (ldE i x1) x2 x3 (ldK0 K) (ldK1 K)
    (fun a b => Real.exp (lr R (row t a) (row 0 b))) (fun a b => Real.exp (lr R (row t a) (row 1 b)))
    (fun a b => by rw [KMat.pay5_eq]; exact hE 0 _ k0 a b) (fun a b => by rw [KMat.pay7_eq]; exact hE 1 _ k1 a b)
  have s59 := KOut.pay15_apply (Q i x1 x2 x3) (k0_pay8 (ldE i x1) x2 x3 (ldK0 K) (ldK1 K)) (ldK2 K) (ldK3 K) (ldK4 K) _
    (fun a b => Real.exp (lr R (row t a) (row 2 b))) (fun a b => Real.exp (lr R (row t a) (row 3 b)))
    (fun a b => Real.exp (lr R (row t a) (row 4 b))) s29
    (hE 2 _ k2) (fun a b => by rw [KMat.pay12_eq]; exact hE 3 _ k3 a b) (fun a b => by rw [KMat.pay14_eq]; exact hE 4 _ k4 a b)
  have s68 := KOut.pay18_apply (Q i x1 x2 x3) (ldK5 K) (fun a b => Real.exp (lr R (row t a) (row 5 b)))
    (fun a b => by rw [KMat.pay17_eq]; exact hE 5 _ k5 a b)
  -- the eight chunk sums are the row's normaliser
  have hZ : ∀ a : Fin 1024,
      ((((((((∑ b', Real.exp (lr R (row t a) (row 0 b'))) + ∑ b', Real.exp (lr R (row t a) (row 1 b'))) + ∑ b', Real.exp (lr R (row t a) (row 2 b'))) + ∑ b', Real.exp (lr R (row t a) (row 3 b'))) + ∑ b', Real.exp (lr R (row t a) (row 4 b'))) + ∑ b', Real.exp (lr R (row t a) (row 5 b'))) + ∑ b', Real.exp (lr R (row t a) (row 6 b'))) + ∑ b', Real.exp (lr R (row t a) (row 7 b'))) = zr R (row t a) :=
    fun a => sum_chunks (fun j => Real.exp (lr R (row t a) j))
  have v104 := KOut.pay25_apply (Q i x1 x2 x3)
    (k0_pay15 (Q i x1 x2 x3) (k0_pay8 (ldE i x1) x2 x3 (ldK0 K) (ldK1 K)) (ldK2 K) (ldK3 K) (ldK4 K))
    (k0_pay18 (Q i x1 x2 x3) (ldK5 K)) (ldK6 K) (ldK7 K) (ldB i x0) (P16 i x1 x2 x3 K) _ _
    (fun a b => Real.exp (lr R (row t a) (row 6 b))) (fun a b => Real.exp (lr R (row t a) (row 7 b)))
    (fun b a => R.b b (row t a)) (fun a j => Real.exp (lr R (row t a) j))
    s59 s68
    (fun a b => by rw [KMat.pay20_eq]; exact hE 6 _ k6 a b) (fun a b => by rw [KMat.pay22_eq]; exact hE 7 _ k7 a b)
    (fun b a => by rw [ldB_apply i t hi]; exact h0 _ _)
    (P16_apply R t i hi x1 x2 x3 h1 h2 h3 K hK)
    (fun a => by rw [hZ a]; exact zr_ne R _) b j
  unfold slab
  rw [KOut.pay1_apply, hacc, v104, ← EReal.coe_add]
  congr 2
  refine Finset.sum_congr rfl fun a _ => ?_
  rw [hZ a]
  unfold tr
  ring

end Cert.KValue

end
-- ==== Proof.KInv.lean ====
/-
  The kernel's result array over the reals.

  Every window of the call takes its whole array at every grid point, and the result window is written back once,
  after the last point. By induction over the eight grid points: after point `n` the carried scratch holds the key
  features `K h j = k j h` (computed at the first point, kept afterwards) and the result buffer holds the output summed
  over the first `n + 1` slabs of states. After the eighth point that is the whole output.
-/
import proofs.«122804_g5935644803188_cont_9to1c4b_610_12_alg».proof.Proof.KValue
import proofs.«122804_g5935644803188_cont_9to1c4b_610_12_alg».proof.Proof.Gen.KernelIdeal.Value
import Idealize.ShloMosaic.Lib.StableHlo.Run
import Idealize.ShloMosaic.Lib.ValueLayout

set_option maxRecDepth 16384

noncomputable section

namespace Cert.KInv

open Cert.KernelIdeal Cert.KernelIdeal.Gen Cert.KSlab Cert.KValue Cert.Spec
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-! ## The arrays the call finds, and its blocks, under their literal types -/

abbrev A0 (c : Dev nD) : Vec Ideal S16x8192 .f32 := V m c main_arg0
abbrev A1 (c : Dev nD) : Vec Ideal S8192x128 .f32 := V m c main_arg1
abbrev A2 (c : Dev nD) : Vec Ideal S64x128 .f32 := V m c main_arg4
abbrev A3 (c : Dev nD) : Vec Ideal S1x64 .f32 := V m c main_v0
abbrev A4 (c : Dev nD) : Vec Ideal S64x128 .f32 := V m c main_arg2
abbrev A5 (c : Dev nD) : Vec Ideal S64x1 .f32 := V m c main_v1
abbrev B0 (c : Dev nD) (t : Fin cfg0.N) : Vec Ideal S16x8192 .f32 := iblk m c 0 t
abbrev B1 (c : Dev nD) (t : Fin cfg0.N) : Vec Ideal S8192x128 .f32 := iblk m c 1 t
abbrev B2 (c : Dev nD) (t : Fin cfg0.N) : Vec Ideal S64x128 .f32 := iblk m c 2 t
abbrev B3 (c : Dev nD) (t : Fin cfg0.N) : Vec Ideal S1x64 .f32 := iblk m c 3 t
abbrev B4 (c : Dev nD) (t : Fin cfg0.N) : Vec Ideal S64x128 .f32 := iblk m c 4 t
abbrev B5 (c : Dev nD) (t : Fin cfg0.N) : Vec Ideal S64x1 .f32 := iblk m c 5 t

/-- Every window's block index is zero on both axes at every point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- A grid point's one coordinate is its position. -/
theorem coords_val : ∀ t : Fin cfg0.N, (grid0.coords t 0).val = t.val :=
  (by decide +kernel : ∀ t : Fin grid0.N, (grid0.coords t 0).val = t.val)

theorem B0_eq (c : Dev nD) (t : Fin cfg0.N) : B0 m c t = A0 m c := by
  obtain ⟨e0, e1, -⟩ := idx_facts t
  funext y
  show V m c main_arg0 (((cfg0.win 0).blk t).view.emb y) = V m c main_arg0 y
  refine congrArg _ (funext fun a => Fin.ext ?_)
  match a with
  | ⟨0, _⟩ => show win0_0.index t (0 : Fin 2) * 16 + 1 * (y 0).val = (y 0).val; omega
  | ⟨1, _⟩ => show win0_0.index t (1 : Fin 2) * 8192 + 1 * (y 1).val = (y 1).val; omega

theorem B1_eq (c : Dev nD) (t : Fin cfg0.N) : B1 m c t = A1 m c := by
  obtain ⟨-, -, e0, e1, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 8192 + 1 * (y 0).val = (y 0).val; omega
  | ⟨1, _⟩ => show win0_1.index t (1 : Fin 2) * 128 + 1 * (y 1).val = (y 1).val; omega

theorem B2_eq (c : Dev nD) (t : Fin cfg0.N) : B2 m c t = A2 m c := by
  obtain ⟨-, -, -, -, e0, e1, -⟩ := idx_facts t
  funext y
  show V m c main_arg4 (((cfg0.win 2).blk t).view.emb y) = V m c main_arg4 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 128 + 1 * (y 1).val = (y 1).val; omega

theorem B3_eq (c : Dev nD) (t : Fin cfg0.N) : B3 m c t = A3 m c := by
  obtain ⟨-, -, -, -, -, -, e0, e1, -⟩ := idx_facts t
  funext y
  show V m c main_v0 (((cfg0.win 3).blk t).view.emb y) = V m c main_v0 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem B4_eq (c : Dev nD) (t : Fin cfg0.N) : B4 m c t = A4 m c := by
  obtain ⟨-, -, -, -, -, -, -, -, e0, e1, -⟩ := idx_facts t
  funext y
  show V m c main_arg2 (((cfg0.win 4).blk t).view.emb y) = V m c main_arg2 y
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 128 + 1 * (y 1).val = (y 1).val; omega

theorem B5_eq (c : Dev nD) (t : Fin cfg0.N) : B5 m c t = A5 m c := by
  obtain ⟨-, -, -, -, -, -, -, -, -, -, e0, e1, -⟩ := idx_facts t
  funext y
  show V m c main_v1 (((cfg0.win 5).blk t).view.emb y) = V m c main_v1 y
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 1 + 1 * (y 1).val = (y 1).val; omega

/-! ## The two biases, reshaped by the host before the call -/

/-- The query bias as a row. -/
theorem A3_eq (c : Dev nD) : A3 m c = shapeCast S1x64 (m ((c : Thread nD τ).loc main_arg5)) shapeCasts_S64_S1x64 := by
  dsimp only [A3, V, hostOps0]; after_results; rfl

/-- The key bias as a column. -/
theorem A5_eq (c : Dev nD) : A5 m c = shapeCast S64x1 (m ((c : Thread nD τ).loc main_arg3)) shapeCasts_S64_S64x1 := by
  dsimp only [A5, V, hostOps0]; after_results; rfl

/-! ## Real inputs -/

/-- The six argument arrays, as launched on core `c`, hold the reals of `R`. -/
structure RealMem (R : RIn) (c : Dev nD) : Prop where
  h0 : IsReal2 (m ((c : Thread nD τ).loc main_arg0) : Vec Ideal S16x8192 .f32) R.b
  h1 : IsReal2 (m ((c : Thread nD τ).loc main_arg1) : Vec Ideal S8192x128 .f32) R.e
  h2 : IsReal2 (m ((c : Thread nD τ).loc main_arg2) : Vec Ideal S64x128 .f32) R.wk
  h3 : IsReal1 (m ((c : Thread nD τ).loc main_arg3) : Vec Ideal S64 .f32) R.bk
  h4 : IsReal2 (m ((c : Thread nD τ).loc main_arg4) : Vec Ideal S64x128 .f32) R.wq
  h5 : IsReal1 (m ((c : Thread nD τ).loc main_arg5) : Vec Ideal S64 .f32) R.bq

section
variable {m} {R : RIn} {c : Dev nD} (H : RealMem m R c)
include H

theorem A0_real : IsReal2 (A0 m c) R.b := fun a b => by
  show V m c main_arg0 (ix2 a b) = _; rw [V_main_arg0]; exact H.h0 a b
theorem A1_real : IsReal2 (A1 m c) R.e := fun a b => by
  show V m c main_arg1 (ix2 a b) = _; rw [V_main_arg1]; exact H.h1 a b
theorem A2_real : IsReal2 (A2 m c) R.wq := fun a b => by
  show V m c main_arg4 (ix2 a b) = _; rw [V_main_arg4]; exact H.h4 a b
theorem A4_real : IsReal2 (A4 m c) R.wk := fun a b => by
  show V m c main_arg2 (ix2 a b) = _; rw [V_main_arg2]; exact H.h2 a b
theorem A3_real (h : Fin 64) : A3 m c (ix2 (0 : Fin 1) h) = ((R.bq h : ℝ) : EReal) := by
  rw [A3_eq, shapeCast_a_1a_apply]; exact H.h5 h
theorem A5_real (h : Fin 64) : A5 m c (ix2 h (0 : Fin 1)) = ((R.bk h : ℝ) : EReal) := by
  rw [A5_eq, KOut.shapeCast_n_n1_apply]; exact H.h3 h

/-- The key features the first point computes are `k`, transposed. -/
theorem keys_real (t : Fin cfg0.N) (h : Fin 64) (j : Fin 8192) :
    k0_pay2 (F := Ideal) (B4 m c t) (B1 m c t) (B5 m c t) (ix2 h j) = ((kr R j h : ℝ) : EReal) := by
  rw [KMat.pay2_apply (B4 m c t) (B1 m c t) (B5 m c t) R.wk R.e R.bk
    (by rw [B4_eq]; exact A4_real H) (by rw [B1_eq]; exact A1_real H) (fun h => by rw [B5_eq]; exact A5_real H h) h j]
  unfold kr
  congr 2
  exact Finset.sum_congr rfl fun d _ => mul_comm _ _

end

/-! ## The invariant over the grid points -/

/-- The output summed over the first `n` slabs of states. -/
def pout (R : RIn) (n : ℕ) (b : Fin 16) (j : Fin 8192) : ℝ := psum (fun i => R.b b i * tr R i j) n

/-- After point `n`: the result buffer holds the output over the first `n + 1` slabs, the carried scratch the keys. -/
theorem inv {R : RIn} {c : Dev nD} (H : RealMem m R c) : ∀ (n : ℕ) (hn : n < cfg0.N),
    (∀ b j, (outsAt0 m c n hn).1 (ix2 b j) = ((pout R (n + 1) b j : ℝ) : EReal))
    ∧ (∀ h j, (outsAt0 m c n hn).2 (ix2 h j) = ((kr R j h : ℝ) : EReal)) := by
  intro n
  induction n with
  | zero =>
    intro hn
    have e := outsAt0_A m c ⟨0, hn⟩ rfl
    rw [show outsAt0 m c 0 hn = _ from e]
    dsimp only
    refine ⟨fun b j => ?_, fun h j => ?_⟩
    · rw [outA_eq]
      refine (slab_apply R 0 (grid0.coords ⟨0, hn⟩) (coords_val ⟨0, hn⟩) (B0 m c ⟨0, hn⟩) (B1 m c ⟨0, hn⟩) (B2 m c ⟨0, hn⟩) (B3 m c ⟨0, hn⟩)
        (k0_pay2 (B4 m c ⟨0, hn⟩) (B1 m c ⟨0, hn⟩) (B5 m c ⟨0, hn⟩)) (k0_pay3 (F := Ideal))
        (by rw [B0_eq]; exact A0_real H) (by rw [B1_eq]; exact A1_real H) (by rw [B2_eq]; exact A2_real H)
        (fun h => by rw [B3_eq]; exact A3_real H h) (keys_real H ⟨0, hn⟩) (fun _ _ => 0)
        (fun b j => by rw [KOut.pay3_apply]; exact EReal.coe_zero.symm) b j).trans ?_
      have h : psum (fun i => R.b b i * tr R i j) (0 + 1) = psum (fun i => R.b b i * tr R i j) 0 + ∑ a : Fin 1024, R.b b (row 0 a) * tr R (row 0 a) j :=
        psum_succ (fun i => R.b b i * tr R i j) 0
      have hz := psum_zero (fun i => R.b b i * tr R i j)
      refine congrArg (fun x : ℝ => (x : EReal)) ?_
      show (0 : ℝ) + ∑ a : Fin 1024, R.b b (row 0 a) * tr R (row 0 a) j = psum (fun i => R.b b i * tr R i j) (0 + 1)
      rw [h, hz]
    · rw [soutA_eq]
      exact keys_real H ⟨0, hn⟩ h j
  | succ n ih =>
    intro hn
    have hN : n + 1 < 8 := lt_of_lt_of_eq hn N_0
    have h0' : ¬ (n + 1) % 8 = 0 := by omega
    obtain ⟨ihO, ihK⟩ := ih (Nat.lt_of_succ_lt hn)
    have e := outsAt0_B m c ⟨n + 1, hn⟩ h0'
    rw [show outsAt0 m c (n + 1) hn = _ from e]
    dsimp only
    refine ⟨fun b j => ?_, fun h j => ?_⟩
    · rw [outB_eq]
      refine (slab_apply R ⟨n + 1, hN⟩ (grid0.coords ⟨n + 1, hn⟩) (coords_val ⟨n + 1, hn⟩) (B0 m c ⟨n + 1, hn⟩) (B1 m c ⟨n + 1, hn⟩) (B2 m c ⟨n + 1, hn⟩) (B3 m c ⟨n + 1, hn⟩)
        (outsAt0 m c n (Nat.lt_of_succ_lt hn)).2 (outsAt0 m c n (Nat.lt_of_succ_lt hn)).1
        (by rw [B0_eq]; exact A0_real H) (by rw [B1_eq]; exact A1_real H) (by rw [B2_eq]; exact A2_real H)
        (fun h => by rw [B3_eq]; exact A3_real H h) ihK (pout R (n + 1)) ihO b j).trans ?_
      exact congrArg (fun x : ℝ => (x : EReal)) (psum_succ (fun i => R.b b i * tr R i j) ⟨n + 1, hN⟩).symm
    · exact ihK h j

/-! ## The result array -/

/-- The result window's block at any point is the whole array. -/
theorem mem_blk6 (t : Fin cfg0.N) (i : S16x8192.Idx) : i ∈ ((cfg0.win 6).blk t).view.set := by
  obtain ⟨-, -, -, -, -, -, -, -, -, -, -, -, e0, e1⟩ := idx_facts t
  show i ∈ ((View.whole main_v2).slice (win0_6.rect t)).set
  rw [View.set_slice_whole, Rect.mem_set_unit]
  intro a
  match a with
  | ⟨0, _⟩ =>
    show win0_6.index t (0 : Fin 2) * 16 ≤ (i 0).val ∧ (i 0).val < win0_6.index t (0 : Fin 2) * 16 + 16
    have hi : (i 0).val < 16 := (i 0).isLt
    omega
  | ⟨1, _⟩ =>
    show win0_6.index t (1 : Fin 2) * 8192 ≤ (i 1).val ∧ (i 1).val < win0_6.index t (1 : Fin 2) * 8192 + 8192
    have hi : (i 1).val < 8192 := (i 1).isLt
    omega

/-- After the call the result array is the output, at every index. -/
theorem final {R : RIn} {c : Dev nD} (H : RealMem m R c) : (dats m 0 c).arrAt 6 cfg0.N = Spec.G R := by
  refine (dats m 0 c).arrAt_eq_of_cover 6 (Spec.G R) (fun t ht => ?_) (fun i => ?_)
  · have hN : t.val < 8 := lt_of_lt_of_eq t.isLt N_0
    have h7 : t.val = 7 := by have := (flush0_6 t).mp ht; omega
    obtain ⟨-, -, -, -, -, -, -, -, -, -, -, -, e0, e1⟩ := idx_facts t
    rw [Value.flushed6]
    funext y
    show (outsAt0 m c t.val t.isLt).1 y = Spec.G R (((cfg0.win 6).blk t).view.emb y)
    have hy : ((cfg0.win 6).blk t).view.emb y = y := by
      funext a; apply Fin.ext
      match a with
      | ⟨0, _⟩ => show win0_6.index t (0 : Fin 2) * 16 + 1 * (y 0).val = (y 0).val; omega
      | ⟨1, _⟩ => show win0_6.index t (1 : Fin 2) * 8192 + 1 * (y 1).val = (y 1).val; omega
    rw [hy]
    obtain ⟨b, j, rfl⟩ : ∃ (b : Fin 16) (j : Fin 8192), y = ix2 b j := ⟨y 0, y 1, eq_ix2 y⟩
    rw [(inv m H t.val t.isLt).1 b j]
    show ((pout R (t.val + 1) b j : ℝ) : EReal) = ((outr R b j : ℝ) : EReal)
    rw [h7]
    unfold pout outr
    rw [psum_eight]
  · exact ⟨⟨7, by rw [show cfg0.N = 8 from N_0]; omega⟩, (flush0_6 _).mpr rfl, mem_blk6 _ i⟩

/-- The kernel's run with its result named: every weakly fair execution ends with the result array at the output and
    the arguments unchanged. -/
theorem run {R : Dev nD → RIn} (ρ : Dev nD → PrngReg) (H : ∀ c, RealMem m (R c) c) :
    θ_run defs (onTc (τ := τ) (main (F := Ideal))) ⟨m, fun _ => 0, ρ⟩ fun r => ∀ c : Dev nD,
      r.2.mem ((c : Thread nD τ).loc main_v2) = Spec.G (R c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m (H c)), (h c).2⟩) (Value.run_blocks m ρ)

end Cert.KInv

end
-- ==== Proof.RefValue.lean ====
/-
  The reference program computes the specification's value.

  The reference forms the queries q = e·wqᵀ + bq and the keys k = e·wkᵀ + bk, the logits l = q·kᵀ, subtracts from each
  row of logits its maximum m_i, exponentiates, divides each row by its sum, and multiplies the belief by the result.
  Over real inputs every stage holds reals: the row maximum m_i, folded from −∞ over 8192 reals, is some real number,
  and whichever real it is, exp (l i j − m_i) / ∑ j', exp (l i j' − m_i) = exp (l i j) / ∑ j', exp (l i j') = t i j.
  So the last stage holds out b j = ∑ i, b b i · t i j at every index.
-/
import proofs.«122804_g5935644803188_cont_9to1c4b_610_12_alg».proof.Proof.Gen.ReferenceIdeal.Read
import proofs.«122804_g5935644803188_cont_9to1c4b_610_12_alg».proof.Proof.Spec
import Idealize.ShloMosaic.Lib.ValueIdx
import Idealize.ShloMosaic.PureOps.Ideal.Laws
import Idealize.ShloMosaic.Lib.Pipeline.Value

noncomputable section

namespace Cert.RefValue

open Cert.ReferenceIdeal Cert.ReferenceIdeal.Read Cert.Spec Idealize.ShloMosaic Idealize.ShloMosaic.ValueIdx

/-! ## Reading the layout operations at explicit coordinates -/

theorem i0 (d : Fin 128) (h : Fin 64) : idx_main_v0 (ix2 d h) = ix2 h d := funext fun a => Fin.ext (by match a with | ⟨0, _⟩ => rfl | ⟨1, _⟩ => rfl)
theorem l1 (i : Fin 8192) (h : Fin 64) (k : Fin 128) : lidx_main_v1 (ix2 i h) k = ix2 i k := funext fun a => Fin.ext (by match a with | ⟨0, _⟩ => rfl | ⟨1, _⟩ => rfl)
theorem r1 (i : Fin 8192) (h : Fin 64) (k : Fin 128) : ridx_main_v1 (ix2 i h) k = ix2 k h := funext fun a => Fin.ext (by match a with | ⟨0, _⟩ => rfl | ⟨1, _⟩ => rfl)
theorem i2 (z : Fin 1) (h : Fin 64) : idx_main_v2 (ix2 z h) = ix1 h := funext fun a => Fin.ext (by match a with | ⟨0, _⟩ => rfl)
theorem i3 (i : Fin 8192) (h : Fin 64) : idx_main_v3 (ix2 i h) = ix2 (⟨0, Nat.one_pos⟩ : Fin 1) h := funext fun a => Fin.ext (by match a with | ⟨0, _⟩ => rfl | ⟨1, _⟩ => rfl)
theorem i5 (d : Fin 128) (h : Fin 64) : idx_main_v5 (ix2 d h) = ix2 h d := funext fun a => Fin.ext (by match a with | ⟨0, _⟩ => rfl | ⟨1, _⟩ => rfl)
theorem l6 (i : Fin 8192) (h : Fin 64) (k : Fin 128) : lidx_main_v6 (ix2 i h) k = ix2 i k := funext fun a => Fin.ext (by match a with | ⟨0, _⟩ => rfl | ⟨1, _⟩ => rfl)
theorem r6 (i : Fin 8192) (h : Fin 64) (k : Fin 128) : ridx_main_v6 (ix2 i h) k = ix2 k h := funext fun a => Fin.ext (by match a with | ⟨0, _⟩ => rfl | ⟨1, _⟩ => rfl)
theorem i7 (z : Fin 1) (h : Fin 64) : idx_main_v7 (ix2 z h) = ix1 h := funext fun a => Fin.ext (by match a with | ⟨0, _⟩ => rfl)
theorem i8 (i : Fin 8192) (h : Fin 64) : idx_main_v8 (ix2 i h) = ix2 (⟨0, Nat.one_pos⟩ : Fin 1) h := funext fun a => Fin.ext (by match a with | ⟨0, _⟩ => rfl | ⟨1, _⟩ => rfl)
theorem i10 (h : Fin 64) (j : Fin 8192) : idx_main_v10 (ix2 h j) = ix2 j h := funext fun a => Fin.ext (by match a with | ⟨0, _⟩ => rfl | ⟨1, _⟩ => rfl)
theorem l11 (i j : Fin 8192) (k : Fin 64) : lidx_main_v11 (ix2 i j) k = ix2 i k := funext fun a => Fin.ext (by match a with | ⟨0, _⟩ => rfl | ⟨1, _⟩ => rfl)
theorem r11 (i j : Fin 8192) (k : Fin 64) : ridx_main_v11 (ix2 i j) k = ix2 k j := funext fun a => Fin.ext (by match a with | ⟨0, _⟩ => rfl | ⟨1, _⟩ => rfl)
theorem i15 (i : Fin 8192) (z : Fin 1) : idx_main_v15 (ix2 i z) = ix1 i := funext fun a => Fin.ext (by match a with | ⟨0, _⟩ => rfl)
theorem i16 (i j : Fin 8192) : idx_main_v16 (ix2 i j) = ix2 i (⟨0, Nat.one_pos⟩ : Fin 1) := funext fun a => Fin.ext (by match a with | ⟨0, _⟩ => rfl | ⟨1, _⟩ => rfl)
theorem i19 (i k : Fin 8192) : idx_main_v19 (ix1 i) k = ix2 i k := funext fun a => Fin.ext (by match a with | ⟨0, _⟩ => rfl | ⟨1, _⟩ => rfl)
theorem i20 (i : Fin 8192) (z : Fin 1) : idx_main_v20 (ix2 i z) = ix1 i := funext fun a => Fin.ext (by match a with | ⟨0, _⟩ => rfl)
theorem i21 (i j : Fin 8192) : idx_main_v21 (ix2 i j) = ix2 i (⟨0, Nat.one_pos⟩ : Fin 1) := funext fun a => Fin.ext (by match a with | ⟨0, _⟩ => rfl | ⟨1, _⟩ => rfl)
theorem l23 (b : Fin 16) (j k : Fin 8192) : lidx_main_v23 (ix2 b j) k = ix2 b k := funext fun a => Fin.ext (by match a with | ⟨0, _⟩ => rfl | ⟨1, _⟩ => rfl)
theorem r23 (b : Fin 16) (j k : Fin 8192) : ridx_main_v23 (ix2 b j) k = ix2 k j := funext fun a => Fin.ext (by match a with | ⟨0, _⟩ => rfl | ⟨1, _⟩ => rfl)

/-! ## The queries: q i h = ∑ d, e i d · wq h d + bq h -/

theorem s0 (R : RIn) (x4 : (⟨S64x128, .f32⟩ : BufTy).Contents (Elt Ideal)) (h4 : IsReal2 x4 R.wq) (d : Fin 128) (h : Fin 64) :
    val_main_v0 (F := Ideal) x4 (ix2 d h) = ((R.wq h d : ℝ) : EReal) := by
  rw [val_main_v0_apply, i0, h4]

theorem s1 (R : RIn) (x1 : (⟨S8192x128, .f32⟩ : BufTy).Contents (Elt Ideal)) (x4 : (⟨S64x128, .f32⟩ : BufTy).Contents (Elt Ideal)) (h1 : IsReal2 x1 R.e) (h4 : IsReal2 x4 R.wq) (i : Fin 8192) (h : Fin 64) :
    val_main_v1 (F := Ideal) x1 x4 (ix2 i h) = ((∑ d : Fin 128, R.e i d * R.wq h d : ℝ) : EReal) := by
  rw [val_main_v1_apply, ← coe_sum]
  refine Finset.sum_congr rfl fun k _ => ?_
  rw [l1, r1, h1, s0 R x4 h4, EReal.coe_mul]

theorem s3 (R : RIn) (x5 : (⟨S64, .f32⟩ : BufTy).Contents (Elt Ideal)) (h5 : IsReal1 x5 R.bq) (i : Fin 8192) (h : Fin 64) :
    val_main_v3 (F := Ideal) x5 (ix2 i h) = ((R.bq h : ℝ) : EReal) := by
  rw [val_main_v3_apply, i3, val_main_v2_apply, i2, h5]

theorem s4 (R : RIn) (x1 : (⟨S8192x128, .f32⟩ : BufTy).Contents (Elt Ideal)) (x4 : (⟨S64x128, .f32⟩ : BufTy).Contents (Elt Ideal)) (x5 : (⟨S64, .f32⟩ : BufTy).Contents (Elt Ideal)) (h1 : IsReal2 x1 R.e) (h4 : IsReal2 x4 R.wq) (h5 : IsReal1 x5 R.bq) (i : Fin 8192) (h : Fin 64) :
    val_main_v4 (F := Ideal) x1 x4 x5 (ix2 i h) = ((qr R i h : ℝ) : EReal) := by
  rw [val_main_v4_apply, s1 R x1 x4 h1 h4, s3 R x5 h5, Ideal.addf_def, ← EReal.coe_add]
  rfl

/-! ## The keys: k j h = ∑ d, e j d · wk h d + bk h -/

theorem s5 (R : RIn) (x2 : (⟨S64x128, .f32⟩ : BufTy).Contents (Elt Ideal)) (h2 : IsReal2 x2 R.wk) (d : Fin 128) (h : Fin 64) :
    val_main_v5 (F := Ideal) x2 (ix2 d h) = ((R.wk h d : ℝ) : EReal) := by
  rw [val_main_v5_apply, i5, h2]

theorem s6 (R : RIn) (x1 : (⟨S8192x128, .f32⟩ : BufTy).Contents (Elt Ideal)) (x2 : (⟨S64x128, .f32⟩ : BufTy).Contents (Elt Ideal)) (h1 : IsReal2 x1 R.e) (h2 : IsReal2 x2 R.wk) (j : Fin 8192) (h : Fin 64) :
    val_main_v6 (F := Ideal) x1 x2 (ix2 j h) = ((∑ d : Fin 128, R.e j d * R.wk h d : ℝ) : EReal) := by
  rw [val_main_v6_apply, ← coe_sum]
  refine Finset.sum_congr rfl fun k _ => ?_
  rw [l6, r6, h1, s5 R x2 h2, EReal.coe_mul]

theorem s8 (R : RIn) (x3 : (⟨S64, .f32⟩ : BufTy).Contents (Elt Ideal)) (h3 : IsReal1 x3 R.bk) (j : Fin 8192) (h : Fin 64) :
    val_main_v8 (F := Ideal) x3 (ix2 j h) = ((R.bk h : ℝ) : EReal) := by
  rw [val_main_v8_apply, i8, val_main_v7_apply, i7, h3]

theorem s9 (R : RIn) (x1 : (⟨S8192x128, .f32⟩ : BufTy).Contents (Elt Ideal)) (x2 : (⟨S64x128, .f32⟩ : BufTy).Contents (Elt Ideal)) (x3 : (⟨S64, .f32⟩ : BufTy).Contents (Elt Ideal)) (h1 : IsReal2 x1 R.e) (h2 : IsReal2 x2 R.wk) (h3 : IsReal1 x3 R.bk) (j : Fin 8192) (h : Fin 64) :
    val_main_v9 (F := Ideal) x1 x2 x3 (ix2 j h) = ((kr R j h : ℝ) : EReal) := by
  rw [val_main_v9_apply, s6 R x1 x2 h1 h2, s8 R x3 h3, Ideal.addf_def, ← EReal.coe_add]
  rfl

theorem s10 (R : RIn) (x1 : (⟨S8192x128, .f32⟩ : BufTy).Contents (Elt Ideal)) (x2 : (⟨S64x128, .f32⟩ : BufTy).Contents (Elt Ideal)) (x3 : (⟨S64, .f32⟩ : BufTy).Contents (Elt Ideal)) (h1 : IsReal2 x1 R.e) (h2 : IsReal2 x2 R.wk) (h3 : IsReal1 x3 R.bk) (h : Fin 64) (j : Fin 8192) :
    val_main_v10 (F := Ideal) x1 x2 x3 (ix2 h j) = ((kr R j h : ℝ) : EReal) := by
  rw [val_main_v10_apply, i10, s9 R x1 x2 x3 h1 h2 h3]

/-! ## The logits: l i j = ∑ h, q i h · k j h -/

theorem s11 (R : RIn) (x1 : (⟨S8192x128, .f32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S64, .f32⟩ : BufTy).Contents (Elt Ideal)) (h1 : IsReal2 x1 R.e) (h2 : IsReal2 x2 R.wk) (h3 : IsReal1 x3 R.bk) (h4 : IsReal2 x4 R.wq) (h5 : IsReal1 x5 R.bq) (i j : Fin 8192) :
    val_main_v11 (F := Ideal) x1 x2 x3 x4 x5 (ix2 i j) = ((lr R i j : ℝ) : EReal) := by
  rw [val_main_v11_apply, lr, ← coe_sum]
  refine Finset.sum_congr rfl fun k _ => ?_
  rw [l11, r11, s4 R x1 x4 x5 h1 h4 h5, s10 R x1 x2 x3 h1 h2 h3, EReal.coe_mul]

/-! ## The row maximum: some real number -/

/-- The reduced index `i` with column `k` put back is (i, k). -/
theorem lift12 (h : S8192x8192.Reduces [1] S8192) (i : Fin 8192) (k : Fin (S8192x8192.size 1)) :
    h.lift (ix1 i) k = ix2 i (⟨k.val, k.isLt⟩ : Fin 8192) :=
  funext fun a => Fin.ext (by match a with | ⟨0, _⟩ => rfl | ⟨1, _⟩ => rfl)

/-- The word of −∞ is `⊥`. -/
theorem negInf : Ideal.ofBits .f32 0xFF800000#32 = (⊥ : EReal) := by simp [Ideal.ofBits, Ideal.ieee]

/-- Folded from −∞, the maximum over a row of reals is a real. -/
theorem rowmax_real (y : S8192x8192.Idx → Ideal .f32) (init : S_.Idx → Ideal .f32) (h' : S8192x8192.ReducesTo [1] S8192)
    (hu : 0 < S_.numel) (hinit : init (Shape.Idx.first hu) = (⊥ : EReal)) (l : Fin 8192 → ℝ) (i : Fin 8192)
    (hy : ∀ j, y (ix2 i j) = ((l j : ℝ) : EReal)) :
    ∃ m : ℝ, Host.reduce (FloatOps.maximumf (F := Ideal) (φ := .f32)) y init h' hu (ix1 i) = (m : EReal) := by
  have hR : S8192x8192.Reduces [1] S8192 := by decide
  rw [Host.reduce_eq_fold_single FloatOps.maximumf y init h' hR hu, hinit]
  have hf : (y ∘ hR.lift (ix1 i)) = fun k : Fin (S8192x8192.size 1) => ((l ⟨k.val, k.isLt⟩ : ℝ) : EReal) :=
    funext fun k => by
      show y (hR.lift (ix1 i) k) = _
      rw [lift12, hy]
  rw [hf]
  have k0 : Fin (S8192x8192.size 1) := (⟨0, by norm_num⟩ : Fin 8192)
  obtain ⟨m, hm⟩ := fold_max_real (Finset.univ : Finset (Fin (S8192x8192.size 1))) ⟨k0, Finset.mem_univ _⟩
    (fun k => l ⟨k.val, k.isLt⟩)
  exact ⟨m, hm⟩

theorem s12 (R : RIn) (x1 : (⟨S8192x128, .f32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S64, .f32⟩ : BufTy).Contents (Elt Ideal)) (h1 : IsReal2 x1 R.e) (h2 : IsReal2 x2 R.wk) (h3 : IsReal1 x3 R.bk) (h4 : IsReal2 x4 R.wq) (h5 : IsReal1 x5 R.bq) (i : Fin 8192) :
    ∃ m : ℝ, val_main_v12 (F := Ideal) x1 x2 x3 x4 x5 (ix1 i) = (m : EReal) := by
  unfold val_main_v12
  refine rowmax_real _ _ _ _ ?_ (fun j => lr R i j) i (fun j => s11 R x1 x2 x3 x4 x5 h1 h2 h3 h4 h5 i j)
  rw [val_main_cst_apply, Ideal.ofBits_def, negInf]

theorem s14 (R : RIn) (x1 : (⟨S8192x128, .f32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S64, .f32⟩ : BufTy).Contents (Elt Ideal)) (h1 : IsReal2 x1 R.e) (h2 : IsReal2 x2 R.wk) (h3 : IsReal1 x3 R.bk) (h4 : IsReal2 x4 R.wq) (h5 : IsReal1 x5 R.bq) (i : Fin 8192) :
    ∃ m : ℝ, val_main_v14 (F := Ideal) x1 x2 x3 x4 x5 (ix1 i) = (m : EReal) := by
  obtain ⟨m, hm⟩ := s12 R x1 x2 x3 x4 x5 h1 h2 h3 h4 h5 i
  refine ⟨m, ?_⟩
  rw [val_main_v14_apply, hm, val_main_v13_apply, val_main_cst_0_apply, Ideal.maximumf_def, Ideal.ofBits_def, negInf,
    max_eq_right bot_le]

/-! ## The shifted exponentials and their row sums, for a row whose maximum is the real `m` -/

theorem s16 (x1 : (⟨S8192x128, .f32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S64, .f32⟩ : BufTy).Contents (Elt Ideal)) (i j : Fin 8192) (m : ℝ)
    (hm : val_main_v14 (F := Ideal) x1 x2 x3 x4 x5 (ix1 i) = (m : EReal)) :
    val_main_v16 (F := Ideal) x1 x2 x3 x4 x5 (ix2 i j) = (m : EReal) := by
  rw [val_main_v16_apply, i16, val_main_v15_apply, i15, hm]

theorem s18 (R : RIn) (x1 : (⟨S8192x128, .f32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S64, .f32⟩ : BufTy).Contents (Elt Ideal)) (h1 : IsReal2 x1 R.e) (h2 : IsReal2 x2 R.wk) (h3 : IsReal1 x3 R.bk) (h4 : IsReal2 x4 R.wq) (h5 : IsReal1 x5 R.bq) (i j : Fin 8192) (m : ℝ)
    (hm : val_main_v14 (F := Ideal) x1 x2 x3 x4 x5 (ix1 i) = (m : EReal)) :
    val_main_v18 (F := Ideal) x1 x2 x3 x4 x5 (ix2 i j) = ((Real.exp (lr R i j - m) : ℝ) : EReal) := by
  rw [val_main_v18_apply, val_main_v17_apply, s11 R x1 x2 x3 x4 x5 h1 h2 h3 h4 h5, s16 x1 x2 x3 x4 x5 i j m hm, Ideal.subf_def,
    ← EReal.coe_sub, Ideal.hostUnary_exp_def, Ideal.exp_coe]

theorem s19 (R : RIn) (x1 : (⟨S8192x128, .f32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S64, .f32⟩ : BufTy).Contents (Elt Ideal)) (h1 : IsReal2 x1 R.e) (h2 : IsReal2 x2 R.wk) (h3 : IsReal1 x3 R.bk) (h4 : IsReal2 x4 R.wq) (h5 : IsReal1 x5 R.bq) (i : Fin 8192) (m : ℝ)
    (hm : val_main_v14 (F := Ideal) x1 x2 x3 x4 x5 (ix1 i) = (m : EReal)) :
    val_main_v19 (F := Ideal) x1 x2 x3 x4 x5 (ix1 i) = ((∑ j : Fin 8192, Real.exp (lr R i j - m) : ℝ) : EReal) := by
  rw [val_main_v19_apply, val_main_cst_1_apply, Ideal.ofBits_def, Ideal.ofBits_zero_f32, zero_add, ← coe_sum]
  refine Finset.sum_congr rfl fun k _ => ?_
  rw [i19, s18 R x1 x2 x3 x4 x5 h1 h2 h3 h4 h5 i k m hm]

theorem s21 (R : RIn) (x1 : (⟨S8192x128, .f32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S64, .f32⟩ : BufTy).Contents (Elt Ideal)) (h1 : IsReal2 x1 R.e) (h2 : IsReal2 x2 R.wk) (h3 : IsReal1 x3 R.bk) (h4 : IsReal2 x4 R.wq) (h5 : IsReal1 x5 R.bq) (i j : Fin 8192) (m : ℝ)
    (hm : val_main_v14 (F := Ideal) x1 x2 x3 x4 x5 (ix1 i) = (m : EReal)) :
    val_main_v21 (F := Ideal) x1 x2 x3 x4 x5 (ix2 i j) = ((∑ j : Fin 8192, Real.exp (lr R i j - m) : ℝ) : EReal) := by
  rw [val_main_v21_apply, i21, val_main_v20_apply, i20, s19 R x1 x2 x3 x4 x5 h1 h2 h3 h4 h5 i m hm]

/-! ## The transition matrix: the shift cancels -/

theorem s22 (R : RIn) (x1 : (⟨S8192x128, .f32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S64, .f32⟩ : BufTy).Contents (Elt Ideal)) (h1 : IsReal2 x1 R.e) (h2 : IsReal2 x2 R.wk) (h3 : IsReal1 x3 R.bk) (h4 : IsReal2 x4 R.wq) (h5 : IsReal1 x5 R.bq) (i j : Fin 8192) :
    val_main_v22 (F := Ideal) x1 x2 x3 x4 x5 (ix2 i j) = ((tr R i j : ℝ) : EReal) := by
  obtain ⟨m, hm⟩ := s14 R x1 x2 x3 x4 x5 h1 h2 h3 h4 h5 i
  have hpos : (∑ j' : Fin 8192, Real.exp (lr R i j' - m)) ≠ 0 :=
    (Finset.sum_pos (fun j' _ => Real.exp_pos _) ⟨⟨0, by norm_num⟩, Finset.mem_univ _⟩).ne'
  rw [val_main_v22_apply, s18 R x1 x2 x3 x4 x5 h1 h2 h3 h4 h5 i j m hm, s21 R x1 x2 x3 x4 x5 h1 h2 h3 h4 h5 i j m hm, Ideal.hostDivf_def,
    div_coe_coe _ _ hpos]
  exact EReal.coe_eq_coe_iff.2 (softmax_shift (fun j' => lr R i j') m j)

/-! ## The result: out b j = ∑ i, b b i · t i j -/

theorem s23 (R : RIn) (x0 : (⟨S16x8192, .f32⟩ : BufTy).Contents (Elt Ideal)) (x1 : (⟨S8192x128, .f32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S64, .f32⟩ : BufTy).Contents (Elt Ideal)) (h0 : IsReal2 x0 R.b) (h1 : IsReal2 x1 R.e) (h2 : IsReal2 x2 R.wk) (h3 : IsReal1 x3 R.bk) (h4 : IsReal2 x4 R.wq) (h5 : IsReal1 x5 R.bq) (b : Fin 16) (j : Fin 8192) :
    val_main_v23 (F := Ideal) x0 x1 x2 x3 x4 x5 (ix2 b j) = ((outr R b j : ℝ) : EReal) := by
  rw [val_main_v23_apply, outr, ← coe_sum]
  refine Finset.sum_congr rfl fun k _ => ?_
  rw [l23, r23, h0, s22 R x1 x2 x3 x4 x5 h1 h2 h3 h4 h5, EReal.coe_mul]

/-- The reference program's last stage holds `out` at every index. -/
theorem ref_eq (R : Cert.Spec.RIn)
    (x0 : (⟨S16x8192, .f32⟩ : BufTy).Contents (Elt Ideal)) (x1 : (⟨S8192x128, .f32⟩ : BufTy).Contents (Elt Ideal))
    (x2 : (⟨S64x128, .f32⟩ : BufTy).Contents (Elt Ideal)) (x3 : (⟨S64, .f32⟩ : BufTy).Contents (Elt Ideal))
    (x4 : (⟨S64x128, .f32⟩ : BufTy).Contents (Elt Ideal)) (x5 : (⟨S64, .f32⟩ : BufTy).Contents (Elt Ideal))
    (h0 : IsReal2 x0 R.b) (h1 : IsReal2 x1 R.e) (h2 : IsReal2 x2 R.wk) (h3 : IsReal1 x3 R.bk) (h4 : IsReal2 x4 R.wq) (h5 : IsReal1 x5 R.bq) :
    val_main_v23 (F := Ideal) x0 x1 x2 x3 x4 x5 = Cert.Spec.G R := by
  funext y
  obtain ⟨a, b, rfl⟩ : ∃ a b, y = ix2 a b := ⟨y 0, y 1, eq_ix2 y⟩
  exact s23 R x0 x1 x2 x3 x4 x5 h0 h1 h2 h3 h4 h5 a b

end Cert.RefValue

end
-- ==== Proof.Finite.lean ====
/-
  Finiteness. The precondition says every entry of the six argument arrays has an absolute value strictly below
  `+∞`. Over the extended reals `|x| = max x (−x)`, and `max x (−x) < ⊤` excludes both `⊤` and `⊥`, so every
  entry is a real number. The six arrays are thereby six real-valued functions of their coordinates.
-/
import proofs.«122804_g5935644803188_cont_9to1c4b_610_12_alg».proof.Pre_finite_inputs
import proofs.«122804_g5935644803188_cont_9to1c4b_610_12_alg».proof.Proof.Gen.Pre_finite_inputs
import proofs.«122804_g5935644803188_cont_9to1c4b_610_12_alg».proof.Proof.Spec
import Idealize.ShloMosaic.Lib.ReduceAll
import Idealize.ShloMosaic.Lib.ValueIdx
import Idealize.ShloMosaic.PureOps.Ideal.Laws

noncomputable section

namespace Cert.Finite

open Cert.Spec Idealize.ShloMosaic Idealize.ShloMosaic.ValueIdx

/-- The f32 pattern with an all-ones exponent and a zero significand is `+∞`. -/
theorem ofBits_inf : Ideal.ofBits .f32 0x7F800000#32 = (⊤ : EReal) := by
  simp [Ideal.ofBits, Ideal.ieee]

/-- An extended real whose absolute value lies below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

/-- The shape of a scalar has one index. -/
instance : Subsingleton Cert.Pre_finite_inputs.S_.Idx := ⟨fun a b => funext fun d => d.elim0⟩

/-- An array whose all-reduce of `|x| < +∞` is 1 holds a real at every index. -/
theorem real_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (e : Host.reduce IntOp.andi
      (cmpf .olt (Host.absf x)
        (broadcastInDim S ![] hb (constant (F := Ideal) Cert.Pre_finite_inputs.S_ .f32 0x7F800000#32)))
      init hr hu ix0 = 1#1)
    (i : S.Idx) : ∃ r : ℝ, x i = (r : EReal) := by
  have h1 := Host.reduce_andi_all _ init hr hu ix0 e i
  have h2 : Ideal.cmp .olt (max (x i) (-(x i))) (Ideal.ofBits .f32 0x7F800000#32) = 1#1 := h1
  rw [ofBits_inf] at h2
  apply real_of_abs_lt_top
  by_contra hc
  rw [show Ideal.cmp .olt (max (x i) (-(x i))) ⊤ = BitVec.ofBool (decide (max (x i) (-(x i)) < ⊤)) from rfl,
    decide_eq_false hc] at h2
  exact absurd h2 (by decide)

/-- The precondition gives every entry of the six arrays as a real number. -/
theorem reals_of_pre [Cert.Pre_finite_inputs.Facts]
    (x0 : FVec Ideal Cert.Pre_finite_inputs.S16x8192 .f32) (x1 : FVec Ideal Cert.Pre_finite_inputs.S8192x128 .f32)
    (x2 : FVec Ideal Cert.Pre_finite_inputs.S64x128 .f32) (x3 : FVec Ideal Cert.Pre_finite_inputs.S64 .f32)
    (x4 : FVec Ideal Cert.Pre_finite_inputs.S64x128 .f32) (x5 : FVec Ideal Cert.Pre_finite_inputs.S64 .f32)
    (h : Cert.Pre_finite_inputs.fn (F := Ideal) x0 x1 x2 x3 x4 x5 = (fun _ => 1#1)) :
    ∃ R : Cert.Spec.RIn, IsReal2 x0 R.b ∧ IsReal2 x1 R.e ∧ IsReal2 x2 R.wk ∧ IsReal1 x3 R.bk ∧ IsReal2 x4 R.wq ∧ IsReal1 x5 R.bq := by
  have h0 := congrFun h ValueIdx.ix0
  unfold Cert.Pre_finite_inputs.fn Cert.Pre_finite_inputs.fn_part1 at h0
  dsimp only at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  choose r0 hr0 using real_of_all x0 _ _ _ _ e0
  choose r1 hr1 using real_of_all x1 _ _ _ _ e1
  choose r2 hr2 using real_of_all x2 _ _ _ _ e2
  choose r3 hr3 using real_of_all x3 _ _ _ _ e3
  choose r4 hr4 using real_of_all x4 _ _ _ _ e4
  choose r5 hr5 using real_of_all x5 _ _ _ _ e5
  exact ⟨⟨fun a b => r0 (ix2 a b), fun a b => r1 (ix2 a b), fun a b => r2 (ix2 a b), fun a => r3 (ix1 a),
      fun a b => r4 (ix2 a b), fun a => r5 (ix1 a)⟩,
    fun a b => hr0 (ix2 a b), fun a b => hr1 (ix2 a b), fun a b => hr2 (ix2 a b), fun a => hr3 (ix1 a),
    fun a b => hr4 (ix2 a b), fun a => hr5 (ix1 a)⟩

end Cert.Finite

end
-- ==== Proof.lean ====
/-
  The fused factorized-transition kernel against its jnp reference, over the extended reals.

  Both programs compute `out = belief · softmax (Q Kᵀ)` with `Q = emb Wqᵀ + bq`, `K = emb Wkᵀ + bk`. The reference
  forms the 8192 × 8192 logits, subtracts each row's maximum, exponentiates, divides by the row sums and multiplies the
  belief in. The kernel walks the rows in eight slabs of 1024: it computes `Kᵀ` once, and per slab the slab's queries,
  the exponentials of its logits without the maximum, their row sums, the belief's slab divided by those sums, and adds
  that times the exponentials into the result.
  Under the precondition every input is a real number, so every logit is real, every exponential is a positive real,
  every row sum is a positive real, and both programs end at `∑ i, belief b i · exp (l i j) / ∑ j', exp (l i j')`:
  subtracting a row's maximum cancels between numerator and denominator, dividing the belief by the row sum before the
  product is dividing the exponential by it, and eight slab sums added in order are the sum over all rows.
  The modules: Spec (the value over the reals), SlabSum (sums by slabs), Finite (the precondition gives reals),
  RefValue (the reference is the value), KSlab / KMat / KOut / KValue (one grid point of the kernel), KInv (the induction
  over the grid points and the result array).
-/
import proofs.«122804_g5935644803188_cont_9to1c4b_610_12_alg».proof.Defs
import proofs.«122804_g5935644803188_cont_9to1c4b_610_12_alg».proof.Proof.Gen.Kernel
import proofs.«122804_g5935644803188_cont_9to1c4b_610_12_alg».proof.Proof.Gen.Kernel.Skeleton
import proofs.«122804_g5935644803188_cont_9to1c4b_610_12_alg».proof.Proof.Gen.Kernel.Launch
import proofs.«122804_g5935644803188_cont_9to1c4b_610_12_alg».proof.Proof.Gen.Kernel.Points
import proofs.«122804_g5935644803188_cont_9to1c4b_610_12_alg».proof.Proof.Gen.Kernel.Frame
import proofs.«122804_g5935644803188_cont_9to1c4b_610_12_alg».proof.Proof.Gen.KernelIdeal
import proofs.«122804_g5935644803188_cont_9to1c4b_610_12_alg».proof.Proof.Gen.KernelIdeal.Skeleton
import proofs.«122804_g5935644803188_cont_9to1c4b_610_12_alg».proof.Proof.Gen.KernelIdeal.Launch
import proofs.«122804_g5935644803188_cont_9to1c4b_610_12_alg».proof.Proof.Gen.KernelIdeal.Points
import proofs.«122804_g5935644803188_cont_9to1c4b_610_12_alg».proof.Proof.Gen.KernelIdeal.Frame
import proofs.«122804_g5935644803188_cont_9to1c4b_610_12_alg».proof.Proof.Gen.ReferenceIdeal
import proofs.«122804_g5935644803188_cont_9to1c4b_610_12_alg».proof.Proof.Gen.Pre_finite_inputs
import proofs.«122804_g5935644803188_cont_9to1c4b_610_12_alg».proof.Proof.Gen.KernelIdeal.Value
import proofs.«122804_g5935644803188_cont_9to1c4b_610_12_alg».proof.Proof.Gen.ReferenceIdeal.Run
import proofs.«122804_g5935644803188_cont_9to1c4b_610_12_alg».proof.Proof.Gen.ReferenceIdeal.Read
import Idealize.ShloMosaic.Adequacy
import Idealize.ShloMosaic.Init
import proofs.«122804_g5935644803188_cont_9to1c4b_610_12_alg».proof.Proof.KInv
import proofs.«122804_g5935644803188_cont_9to1c4b_610_12_alg».proof.Proof.RefValue
import proofs.«122804_g5935644803188_cont_9to1c4b_610_12_alg».proof.Proof.Finite

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel was read over the extended reals with no operation rewritten. -/
theorem preserves : Cert.preserves_Kernel_KernelIdeal := trivial

/-- From memories that agree on the arguments, all real by the precondition, both programs end with the result array
    at the belief pushed through the row-wise softmax of the logits. -/
theorem algebraic : Cert.algebraic_KernelIdeal_ReferenceIdeal := by
  intro m ρ m' ρ' hpre hagree
  choose R hR using fun c => Cert.Finite.reals_of_pre _ _ _ _ _ _ (hpre c)
  have H : ∀ c, Cert.KInv.RealMem m (R c) c := fun c =>
    ⟨(hR c).1, (hR c).2.1, (hR c).2.2.1, (hR c).2.2.2.1, (hR c).2.2.2.2.1, (hR c).2.2.2.2.2⟩
  refine ⟨fun c => Cert.Spec.G (R c), Cert.KInv.run m ρ H, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  refine (Cert.ReferenceIdeal.Read.val_main_v23_eq m' c).trans ?_
  exact Cert.RefValue.ref_eq (R c) _ _ _ _ _ _
    (fun a b => by rw [a0]; exact (H c).h0 a b) (fun a b => by rw [a1]; exact (H c).h1 a b)
    (fun a b => by rw [a2]; exact (H c).h2 a b) (fun a => by rw [a3]; exact (H c).h3 a)
    (fun a b => by rw [a4]; exact (H c).h4 a b) (fun a => by rw [a5]; exact (H c).h5 a)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
